-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S512 : Shape := ⟨1, ![512]⟩
abbrev S225324 : Shape := ⟨1, ![225324]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S225324 : S_.BroadcastsInDim S225324 (![] : Fin 0 → Fin S225324.rank)
  reducesTo_S225324_S_d0 : S225324.ReducesTo [0] S_

variable [Facts]

def fn_part1 {F : FTy → Type} [FloatOps F] (main_arg4 : IVec S225324 32) (main_v10 : IVec S_ 1) (main_v15 : IVec S225324 1) (main_c_5 : IVec S_ 1) : IVec S_ 1 :=
  let main_v16 : IVec S_ 1 := (fun x v => Host.reduce IntOp.andi x v reducesTo_S225324_S_d0 h_S_) main_v15 main_c_5
  let main_v17 : IVec S_ 1 := andi main_v10 main_v16
  let main_c_6 : IVec S_ 32 := constantI S_ 32 0#32
  let main_v18 : IVec S225324 32 := broadcastInDim S225324 ![] bcast_S_S225324 main_c_6
  let main_v19 : IVec S225324 1 := cmpi .sge main_arg4 main_v18
  let main_c_7 : IVec S_ 32 := constantI S_ 32 512#32
  let main_v20 : IVec S225324 32 := broadcastInDim S225324 ![] bcast_S_S225324 main_c_7
  let main_v21 : IVec S225324 1 := cmpi .slt main_arg4 main_v20
  let main_v22 : IVec S225324 1 := andi main_v19 main_v21
  let main_c_8 : IVec S_ 1 := constantI S_ 1 1#1
  let main_v23 : IVec S_ 1 := (fun x v => Host.reduce IntOp.andi x v reducesTo_S225324_S_d0 h_S_) main_v22 main_c_8
  let main_v24 : IVec S_ 1 := andi main_v17 main_v23
  main_v24

def fn {F : FTy → Type} [FloatOps F] (main_arg0 : FVec F S512x256 .f32) (main_arg1 : IVec S512 32) (main_arg2 : IVec S225324 32) (main_arg3 : IVec S225324 32) (main_arg4 : IVec S225324 32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_c_0 : IVec S_ 32 := constantI S_ 32 0#32
  let main_v4 : IVec S225324 32 := broadcastInDim S225324 ![] bcast_S_S225324 main_c_0
  let main_v5 : IVec S225324 1 := cmpi .sge main_arg2 main_v4
  let main_c_1 : IVec S_ 32 := constantI S_ 32 512#32
  let main_v6 : IVec S225324 32 := broadcastInDim S225324 ![] bcast_S_S225324 main_c_1
  let main_v7 : IVec S225324 1 := cmpi .slt main_arg2 main_v6
  let main_v8 : IVec S225324 1 := andi main_v5 main_v7
  let main_c_2 : IVec S_ 1 := constantI S_ 1 1#1
  let main_v9 : IVec S_ 1 := (fun x v => Host.reduce IntOp.andi x v reducesTo_S225324_S_d0 h_S_) main_v8 main_c_2
  let main_v10 : IVec S_ 1 := andi main_v3 main_v9
  let main_c_3 : IVec S_ 32 := constantI S_ 32 0#32
  let main_v11 : IVec S225324 32 := broadcastInDim S225324 ![] bcast_S_S225324 main_c_3
  let main_v12 : IVec S225324 1 := cmpi .sge main_arg3 main_v11
  let main_c_4 : IVec S_ 32 := constantI S_ 32 512#32
  let main_v13 : IVec S225324 32 := broadcastInDim S225324 ![] bcast_S_S225324 main_c_4
  let main_v14 : IVec S225324 1 := cmpi .slt main_arg3 main_v13
  let main_v15 : IVec S225324 1 := andi main_v12 main_v14
  let main_c_5 : IVec S_ 1 := constantI S_ 1 1#1
  fn_part1 (F := F) main_arg4 main_v10 main_v15 main_c_5
-- ==== Kernel.lean ====
abbrev S512x256 : Shape := ⟨2, ![512, 256]⟩
abbrev S512 : Shape := ⟨1, ![512]⟩
abbrev S225324 : Shape := ⟨1, ![225324]⟩
abbrev S_ : Shape := ⟨0, ![]⟩
abbrev S227328 : Shape := ⟨1, ![227328]⟩
abbrev S111x16x128 : Shape := ⟨3, ![111, 16, 128]⟩
abbrev S1x1 : Shape := ⟨2, ![1, 1]⟩
abbrev S1x16x128 : Shape := ⟨3, ![1, 16, 128]⟩
abbrev S16x128x512 : Shape := ⟨3, ![16, 128, 512]⟩
abbrev S16x128 : Shape := ⟨2, ![16, 128]⟩
abbrev S16x128x1 : Shape := ⟨3, ![16, 128, 1]⟩
abbrev S2048x512 : Shape := ⟨2, ![2048, 512]⟩
abbrev S2048x256 : Shape := ⟨2, ![2048, 256]⟩
abbrev S2048 : Shape := ⟨1, ![2048]⟩
abbrev S2048x1 : Shape := ⟨2, ![2048, 1]⟩
abbrev S1 : Shape := ⟨1, ![1]⟩

abbrev nBuf : Space → Nat
  | .hbm => 22
  | .vmem => 9
  | .smem => 0
  | _ => 0

abbrev bufTy : (tb : Table) → Fin (tcTables nBuf tb) → BufTy
  | .hbm, ⟨0, _⟩ => ⟨S512x256, .f32⟩
  | .hbm, ⟨1, _⟩ => ⟨S512, .i32⟩
  | .hbm, ⟨2, _⟩ => ⟨S225324, .i32⟩
  | .hbm, ⟨3, _⟩ => ⟨S225324, .i32⟩
  | .hbm, ⟨4, _⟩ => ⟨S225324, .i32⟩
  | .hbm, ⟨5, _⟩ => ⟨S_, .i32⟩
  | .hbm, ⟨6, _⟩ => ⟨S_, .i32⟩
  | .hbm, ⟨7, _⟩ => ⟨S227328, .i32⟩
  | .hbm, ⟨8, _⟩ => ⟨S111x16x128, .i32⟩
  | .hbm, ⟨9, _⟩ => ⟨S_, .i32⟩
  | .hbm, ⟨10, _⟩ => ⟨S_, .i32⟩
  | .hbm, ⟨11, _⟩ => ⟨S227328, .i32⟩
  | .hbm, ⟨12, _⟩ => ⟨S111x16x128, .i32⟩
  | .hbm, ⟨13, _⟩ => ⟨S_, .i32⟩
  | .hbm, ⟨14, _⟩ => ⟨S_, .i32⟩
  | .hbm, ⟨15, _⟩ => ⟨S227328, .i32⟩
  | .hbm, ⟨16, _⟩ => ⟨S111x16x128, .i32⟩
  | .hbm, ⟨17, _⟩ => ⟨S512x256, .bf16⟩
  | .hbm, ⟨18, _⟩ => ⟨S1x1, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S1x16x128, .i32⟩
  | .local _ .vmem, ⟨1, _⟩ => ⟨S1x16x128, .i32⟩
  | .local _ .vmem, ⟨2, _⟩ => ⟨S1x16x128, .i32⟩
  | .local _ .vmem, ⟨3, _⟩ => ⟨S1x16x128, .i32⟩
  | .local _ .vmem, ⟨4, _⟩ => ⟨S1x16x128, .i32⟩
  | .local _ .vmem, ⟨5, _⟩ => ⟨S1x16x128, .i32⟩
  | .local _ .vmem, ⟨6, _⟩ => ⟨S512x256, .bf16⟩
  | .local _ .vmem, ⟨7, _⟩ => ⟨S1x1, .f32⟩
  | .local _ .vmem, ⟨8, _⟩ => ⟨S1x1, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_call2_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![111], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x16x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  pads_S225324_S227328_020040 : S225324.Pads (![0] : Fin 1 → Nat) ![2004] ![0] S227328
  h_S_ : 0 < S_.numel
  shapeCasts_S227328_S111x16x128 : S227328.ShapeCasts S111x16x128
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  iota_S16x128x512_d2_w32 : S16x128x512.Iotas .tc 32 [2]
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  shapeCasts_S16x128_S16x128x1 : S16x128.ShapeCasts S16x128x1
  broadcasts_S16x128x1_S16x128x512 : S16x128x1.Broadcasts S16x128x512
  natLt_1_32 : 1 < 32
  shapeCasts_S16x128x512_S2048x512 : S16x128x512.ShapeCasts S2048x512
  reduces_S2048x256_S2048 : S2048x256.Reduces [1] S2048
  shapeCasts_S2048_S2048x1 : S2048.ShapeCasts S2048x1
  iota_S2048x1_d0_w32 : S2048x1.Iotas .tc 32 [0]
  reduces_S2048x1_S1 : S2048x1.Reduces [0] S1
  shapeCasts_S1_S1x1 : S1.ShapeCasts S1x1
  shapeCasts_S1x1_S_ : S1x1.ShapeCasts S_
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128.size a ≤ S111x16x128.size a
  hwx0_0 : ∀ i : grid0.Coords, EltTy.bits .i32 = 32 ∨ (Rect.block (s := S111x16x128) S1x16x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x128.size a ≤ S111x16x128.size a
  hwx0_1 : ∀ i : grid0.Coords, EltTy.bits .i32 = 32 ∨ (Rect.block (s := S111x16x128) S1x16x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128.size a ≤ S111x16x128.size a
  hwx0_2 : ∀ i : grid0.Coords, EltTy.bits .i32 = 32 ∨ (Rect.block (s := S111x16x128) S1x16x128.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_v1) S1x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x16x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S512x256 : Shape := ⟨2, ![512, 256]⟩
abbrev S512 : Shape := ⟨1, ![512]⟩
abbrev S225324 : Shape := ⟨1, ![225324]⟩
abbrev S_ : Shape := ⟨0, ![]⟩
abbrev S225324x1 : Shape := ⟨2, ![225324, 1]⟩
abbrev S225324x256 : Shape := ⟨2, ![225324, 256]⟩

abbrev nBuf : Space → Nat
  | .hbm => 81
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512, .i32⟩
  | .hbm, ⟨2, _⟩ => ⟨S225324, .i32⟩
  | .hbm, ⟨3, _⟩ => ⟨S225324, .i32⟩
  | .hbm, ⟨4, _⟩ => ⟨S225324, .i32⟩
  | .hbm, ⟨5, _⟩ => ⟨S_, .i32⟩
  | .hbm, ⟨6, _⟩ => ⟨S225324, .i32⟩
  | .hbm, ⟨7, _⟩ => ⟨S225324, .i1⟩
  | .hbm, ⟨8, _⟩ => ⟨S_, .i32⟩
  | .hbm, ⟨9, _⟩ => ⟨S225324, .i32⟩
  | .hbm, ⟨10, _⟩ => ⟨S225324, .i32⟩
  | .hbm, ⟨11, _⟩ => ⟨S225324, .i32⟩
  | .hbm, ⟨12, _⟩ => ⟨S225324x1, .i32⟩
  | .hbm, ⟨13, _⟩ => ⟨S225324x256, .f32⟩
  | .hbm, ⟨14, _⟩ => ⟨S_, .i32⟩
  | .hbm, ⟨15, _⟩ => ⟨S225324, .i32⟩
  | .hbm, ⟨16, _⟩ => ⟨S225324, .i1⟩
  | .hbm, ⟨17, _⟩ => ⟨S_, .i32⟩
  | .hbm, ⟨18, _⟩ => ⟨S225324, .i32⟩
  | .hbm, ⟨19, _⟩ => ⟨S225324, .i32⟩
  | .hbm, ⟨20, _⟩ => ⟨S225324, .i32⟩
  | .hbm, ⟨21, _⟩ => ⟨S225324x1, .i32⟩
  | .hbm, ⟨22, _⟩ => ⟨S225324x256, .f32⟩
  | .hbm, ⟨23, _⟩ => ⟨S_, .i32⟩
  | .hbm, ⟨24, _⟩ => ⟨S225324, .i32⟩
  | .hbm, ⟨25, _⟩ => ⟨S225324, .i1⟩
  | .hbm, ⟨26, _⟩ => ⟨S_, .i32⟩
  | .hbm, ⟨27, _⟩ => ⟨S225324, .i32⟩
  | .hbm, ⟨28, _⟩ => ⟨S225324, .i32⟩
  | .hbm, ⟨29, _⟩ => ⟨S225324, .i32⟩
  | .hbm, ⟨30, _⟩ => ⟨S225324x1, .i32⟩
  | .hbm, ⟨31, _⟩ => ⟨S225324x256, .f32⟩
  | .hbm, ⟨32, _⟩ => ⟨S225324x256, .f32⟩
  | .hbm, ⟨33, _⟩ => ⟨S_, .f32⟩
  | .hbm, ⟨34, _⟩ => ⟨S225324, .f32⟩
  | .hbm, ⟨35, _⟩ => ⟨S225324x256, .f32⟩
  | .hbm, ⟨36, _⟩ => ⟨S_, .f32⟩
  | .hbm, ⟨37, _⟩ => ⟨S225324, .f32⟩
  | .hbm, ⟨38, _⟩ => ⟨S225324, .f32⟩
  | .hbm, ⟨39, _⟩ => ⟨S225324x256, .f32⟩
  | .hbm, ⟨40, _⟩ => ⟨S_, .f32⟩
  | .hbm, ⟨41, _⟩ => ⟨S225324, .f32⟩
  | .hbm, ⟨42, _⟩ => ⟨S225324, .f32⟩
  | .hbm, ⟨43, _⟩ => ⟨S225324, .f32⟩
  | .hbm, ⟨44, _⟩ => ⟨S_, .f32⟩
  | .hbm, ⟨45, _⟩ => ⟨S225324, .f32⟩
  | .hbm, ⟨46, _⟩ => ⟨S225324, .f32⟩
  | .hbm, ⟨47, _⟩ => ⟨S225324, .f32⟩
  | .hbm, ⟨48, _⟩ => ⟨S_, .f32⟩
  | .hbm, ⟨49, _⟩ => ⟨S225324, .f32⟩
  | .hbm, ⟨50, _⟩ => ⟨S225324, .f32⟩
  | .hbm, ⟨51, _⟩ => ⟨S225324x256, .f32⟩
  | .hbm, ⟨52, _⟩ => ⟨S_, .f32⟩
  | .hbm, ⟨53, _⟩ => ⟨S225324, .f32⟩
  | .hbm, ⟨54, _⟩ => ⟨S225324x256, .f32⟩
  | .hbm, ⟨55, _⟩ => ⟨S_, .f32⟩
  | .hbm, ⟨56, _⟩ => ⟨S225324, .f32⟩
  | .hbm, ⟨57, _⟩ => ⟨S225324, .f32⟩
  | .hbm, ⟨58, _⟩ => ⟨S225324x256, .f32⟩
  | .hbm, ⟨59, _⟩ => ⟨S_, .f32⟩
  | .hbm, ⟨60, _⟩ => ⟨S225324, .f32⟩
  | .hbm, ⟨61, _⟩ => ⟨S225324, .f32⟩
  | .hbm, ⟨62, _⟩ => ⟨S225324, .f32⟩
  | .hbm, ⟨63, _⟩ => ⟨S_, .f32⟩
  | .hbm, ⟨64, _⟩ => ⟨S225324, .f32⟩
  | .hbm, ⟨65, _⟩ => ⟨S225324, .f32⟩
  | .hbm, ⟨66, _⟩ => ⟨S225324, .f32⟩
  | .hbm, ⟨67, _⟩ => ⟨S_, .f32⟩
  | .hbm, ⟨68, _⟩ => ⟨S225324, .f32⟩
  | .hbm, ⟨69, _⟩ => ⟨S225324, .f32⟩
  | .hbm, ⟨70, _⟩ => ⟨S225324, .f32⟩
  | .hbm, ⟨71, _⟩ => ⟨S_, .f32⟩
  | .hbm, ⟨72, _⟩ => ⟨S225324, .f32⟩
  | .hbm, ⟨73, _⟩ => ⟨S225324, .f32⟩
  | .hbm, ⟨74, _⟩ => ⟨S_, .f32⟩
  | .hbm, ⟨75, _⟩ => ⟨S225324, .f32⟩
  | .hbm, ⟨76, _⟩ => ⟨S225324, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_call0_v0 : Ref sig .tc := ⟨.hbm, 35, rfl⟩
abbrev main_call0_cst : Ref sig .tc := ⟨.hbm, 36, rfl⟩
abbrev main_call0_v1 : Ref sig .tc := ⟨.hbm, 37, rfl⟩
abbrev main_v23 : Ref sig .tc := ⟨.hbm, 38, rfl⟩
abbrev main_call1_v0 : Ref sig .tc := ⟨.hbm, 39, rfl⟩
abbrev main_call1_cst : Ref sig .tc := ⟨.hbm, 40, rfl⟩
abbrev main_call1_v1 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_call2_v0 : Ref sig .tc := ⟨.hbm, 54, rfl⟩
abbrev main_call2_cst : Ref sig .tc := ⟨.hbm, 55, rfl⟩
abbrev main_call2_v1 : Ref sig .tc := ⟨.hbm, 56, rfl⟩
abbrev main_v33 : Ref sig .tc := ⟨.hbm, 57, rfl⟩
abbrev main_call3_v0 : Ref sig .tc := ⟨.hbm, 58, rfl⟩
abbrev main_call3_cst : Ref sig .tc := ⟨.hbm, 59, rfl⟩
abbrev main_call3_v1 : Ref sig .tc := ⟨.hbm, 60, rfl⟩
abbrev main_v34 : Ref sig .tc := ⟨.hbm, 61, rfl⟩
abbrev main_v35 : Ref sig .tc := ⟨.hbm, 62, rfl⟩
abbrev main_cst_8 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_9 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_10 : Ref sig .tc := ⟨.hbm, 71, rfl⟩
abbrev main_v42 : Ref sig .tc := ⟨.hbm, 72, rfl⟩
abbrev main_v43 : Ref sig .tc := ⟨.hbm, 73, rfl⟩
abbrev main_call4_cst : Ref sig .tc := ⟨.hbm, 74, rfl⟩
abbrev main_call4_v0 : Ref sig .tc := ⟨.hbm, 75, rfl⟩
abbrev main_v44 : Ref sig .tc := ⟨.hbm, 76, rfl⟩
abbrev main_cst_11 : Ref sig .tc := ⟨.hbm, 77, rfl⟩
abbrev main_v45 : Ref sig .tc := ⟨.hbm, 78, rfl⟩
abbrev main_cst_12 : Ref sig .tc := ⟨.hbm, 79, rfl⟩
abbrev main_v46 : Ref sig .tc := ⟨.hbm, 80, rfl⟩

abbrev nD : Nat := 1
abbrev τ : Topo := Topo.v7x

variable {F : FTy → Type} [FloatOps F]

class Facts₀ : Prop where
  bcast_S_S225324 : S_.BroadcastsInDim S225324 (![] : Fin 0 → Fin S225324.rank)
  bcast_S225324_S225324x1_0 : S225324.BroadcastsInDim S225324x1 (![0] : Fin 1 → Fin S225324x1.rank)
  reducesTo_S225324x256_S225324_d1 : S225324x256.ReducesTo [1] S225324
  h_S_ : 0 < S_.numel
  reducesTo_S225324_S_d0 : S225324.ReducesTo [0] S_
  gather_S512x256_S225324x1_S225324x256_1_0_n_n_0_1_1256_wf : GatherDims.WF S512x256 S225324x1 S225324x256 [1] [0] [] [0] [] 1 ![1, 256]

variable [Facts₀]

def gather_S512x256_S225324x1_S225324x256_1_0_n_n_0_1_1256 : GatherDims S512x256 S225324x1 S225324x256 where
  offsetDims := [1]
  collapsedSliceDims := [0]
  operandBatchingDims := []
  startIndicesBatchingDims := []
  startIndexMap := [0]
  indexVectorDim := 1
  sliceSizes := ![1, 256]
  wf := gather_S512x256_S225324x1_S225324x256_1_0_n_n_0_1_1256_wf

class Facts : Prop extends Facts₀ where

variable [Facts]
-- ==== Proof.TripletSpec.lean ====
/-
  The batch-wise triplet loss with the cosine distance, as ONE function of the argument arrays on the extended reals.

  A sample is a row of 256 extended reals. The distance of two rows is 1 − ⟨x, y⟩ / max(‖x‖·‖y‖, ε), with ‖x‖ = √⟨x, x⟩ and
  ε the float the two programs share; the hinge of a triplet (a, p, n) is max(d(a, p) − d(a, n) + margin, 0); the loss is the
  sum of the hinges of the 225324 triplets divided by their number. A triplet is three positions into the 512-row table, each
  an integer word read as the row of that number (a word below 512 is its own row number).

  The kernel sees the triplets 2048 at a time: 111 tiles over the three index vectors padded with zero words up to
  111 · 2048 = 227328 positions, each tile's hinges multiplied by 1 where the position is a real triplet and by 0 on the
  padding, summed, and the tile sums added up tile by tile from zero. That running sum over all tiles is the plain sum over
  the triplets: the padding's terms are products with 0, and a position is a (tile, offset) pair exactly once.
-/
import Idealize.ShloMosaic.PureOps.Ideal
import Idealize.ShloMosaic.PureOps.Ideal.Laws
import Idealize.ShloMosaic.Lib.ValueIdx

noncomputable section

namespace Cert.Triplet

open Idealize.ShloMosaic Idealize.ShloMosaic.ValueIdx

/-- One sample: 256 features. -/
abbrev Row := Fin 256 → EReal

/-- The cosine distance of two rows, the product of the norms clamped from below by ε. -/
def cosDist (x y : Row) : EReal :=
  Ideal.ofBits .f32 0x3F800000#32
    - Ideal.div (∑ d, x d * y d)
        (max (Ideal.sqrt (∑ d, x d * x d) * Ideal.sqrt (∑ d, y d * y d)) (Ideal.ofBits .f32 0x322BCC77#32))

/-- The hinge of one triplet: anchor, positive, negative. -/
def hinge (a p n : Row) : EReal :=
  max (cosDist a p - cosDist a n + Ideal.ofBits .f32 0x3E19999A#32) (Ideal.ofBits .f32 0x00000000#32)

/-- The row a word names (a word below 512 names the row of its own number). -/
def rowOf (w : BitVec 32) : Fin 512 := ⟨w.toNat % 512, Nat.mod_lt _ (by decide)⟩

theorem rowOf_val_of_lt {w : BitVec 32} (h : w.toNat < 512) : (rowOf w).val = w.toNat := Nat.mod_eq_of_lt h

/-- Row n of the table. -/
def rowsOf (x : (⟨2, ![512, 256]⟩ : Shape).Idx → EReal) (n : Fin 512) : Row := fun d => x (ix2 n d)

/-- Every word of an index vector names a row of the table. -/
def InRange (x : (⟨1, ![225324]⟩ : Shape).Idx → BitVec 32) : Prop := ∀ k : Fin 225324, (x (ix1 k)).toNat < 512

/-- The index vector continued by zero words past its end. -/
def padIdx (x : (⟨1, ![225324]⟩ : Shape).Idx → BitVec 32) (k : ℕ) : BitVec 32 :=
  if h : k < 225324 then x (ix1 ⟨k, h⟩) else 0#32

theorem padIdx_lt (x : (⟨1, ![225324]⟩ : Shape).Idx → BitVec 32) (hx : InRange x) (k : ℕ) : (padIdx x k).toNat < 512 := by
  unfold padIdx
  split
  · exact hx _
  · decide

/-- 1 on a real triplet's position, 0 on the padding. -/
def keep (k : ℕ) : EReal := if k < 225324 then 1 else 0

/-- The hinge at position k of the padded index vectors. -/
def term (x0 : (⟨2, ![512, 256]⟩ : Shape).Idx → EReal) (xa xp xn : (⟨1, ![225324]⟩ : Shape).Idx → BitVec 32) (k : ℕ) : EReal :=
  hinge (rowsOf x0 (rowOf (padIdx xa k))) (rowsOf x0 (rowOf (padIdx xp k))) (rowsOf x0 (rowOf (padIdx xn k)))

/-- Tile t's sum: its 2048 positions' hinges, the padding's dropped. -/
def tileSum (x0 : (⟨2, ![512, 256]⟩ : Shape).Idx → EReal) (xa xp xn : (⟨1, ![225324]⟩ : Shape).Idx → BitVec 32) (t : ℕ) : EReal :=
  ∑ r : Fin 2048, term x0 xa xp xn (t * 2048 + r.val) * keep (t * 2048 + r.val)

/-- The running sum after tile n, from zero, tile by tile. -/
def accum (x0 : (⟨2, ![512, 256]⟩ : Shape).Idx → EReal) (xa xp xn : (⟨1, ![225324]⟩ : Shape).Idx → BitVec 32) : ℕ → EReal
  | 0 => Ideal.ofBits .f32 0x00000000#32 + tileSum x0 xa xp xn 0
  | n + 1 => accum x0 xa xp xn n + tileSum x0 xa xp xn (n + 1)

/-- The sum of the hinges over the triplets. -/
def total (x0 : (⟨2, ![512, 256]⟩ : Shape).Idx → EReal) (xa xp xn : (⟨1, ![225324]⟩ : Shape).Idx → BitVec 32) : EReal :=
  ∑ k : Fin 225324, term x0 xa xp xn k.val

/-- The loss: the mean hinge. -/
def loss (x0 : (⟨2, ![512, 256]⟩ : Shape).Idx → EReal) (xa xp xn : (⟨1, ![225324]⟩ : Shape).Idx → BitVec 32) : EReal :=
  Ideal.div (total x0 xa xp xn) (Ideal.ofBits .f32 0x485C0B00#32)

/-- Position r of a tile, as an index of the [1, 16, 128] block the tile's 2048 words arrive in (row-major). -/
def blk3 (r : Fin 2048) : (⟨3, ![1, 16, 128]⟩ : Shape).Idx :=
  ix3 (0 : Fin 1) (⟨r.val / 128, by have := r.isLt; omega⟩ : Fin 16) (⟨r.val % 128, Nat.mod_lt _ (by decide)⟩ : Fin 128)

end Cert.Triplet

end
-- ==== Proof.PreDecode.lean ====
/-
  What the precondition says of the three index vectors: each of its last three conjuncts is "every word w of the vector
  satisfies 0 ≤ w and w < 512, read as signed integers", a conjunction over all positions; a signed word in that range is
  below 512 as a natural number.
-/
import proofs.«406273_j13786845020971_2_alg».proof.Pre_finite_inputs
import proofs.«406273_j13786845020971_2_alg».proof.Proof.Gen.Pre_finite_inputs
import proofs.«406273_j13786845020971_2_alg».proof.Proof.TripletSpec
import Idealize.ShloMosaic.Lib.ReduceAll
import Idealize.ShloMosaic.Lib.StableHlo.Predicate

noncomputable section

namespace Cert.Triplet.Pre

open Idealize.ShloMosaic Idealize.ShloMosaic.ValueIdx Cert.Triplet

/-- A 32-bit word that is at least 0 and below 512 when read as a signed integer is below 512 as a natural number: a word
    whose signed reading is non-negative has its signed and unsigned readings equal (a word of 2³¹ or more reads negative). -/
private theorem toNat_lt_of_signed (w : BitVec 32) (h0 : IntOp.cmpi .sge w 0#32 = 1#1) (h1 : IntOp.cmpi .slt w 512#32 = 1#1) :
    w.toNat < 512 := by
  have a := IntOp.cmpi_sge.1 h0
  have b := IntOp.cmpi_slt.1 h1
  have z : (0#32 : BitVec 32).toInt = 0 := by decide
  have c : (512#32 : BitVec 32).toInt = 512 := by decide
  rw [z] at a
  rw [c] at b
  have hw := w.isLt
  rw [BitVec.toInt_eq_toNat_cond] at a b
  split at a <;> split at b <;> omega

/-- One conjunct of the precondition, read back. The conjunction over all 225324 positions of "0 ≤ x[k] and x[k] < 512"
    (each bound the same scalar at every position) being 1 makes both comparisons 1 at each position k, and the two signed
    bounds on the word x[k] place it below 512. The conjunction's result has a single index, so every position feeds it. -/
private theorem inRange_of_all (x : IVec Cert.Pre_finite_inputs.S225324 32) (init : IVec Cert.Pre_finite_inputs.S_ 1)
    (hb : Cert.Pre_finite_inputs.S_.BroadcastsInDim Cert.Pre_finite_inputs.S225324
      (![] : Fin 0 → Fin Cert.Pre_finite_inputs.S225324.rank))
    (hr : Cert.Pre_finite_inputs.S225324.ReducesTo [0] Cert.Pre_finite_inputs.S_)
    (hu : 0 < Cert.Pre_finite_inputs.S_.numel)
    (e : Host.reduce IntOp.andi
        (andi (cmpi .sge x (broadcastInDim Cert.Pre_finite_inputs.S225324 ![] hb (constantI Cert.Pre_finite_inputs.S_ 32 0#32)))
              (cmpi .slt x (broadcastInDim Cert.Pre_finite_inputs.S225324 ![] hb (constantI Cert.Pre_finite_inputs.S_ 32 512#32))))
        init hr hu ix0 = 1#1) : InRange x := by
  haveI : Subsingleton Cert.Pre_finite_inputs.S_.Idx := ⟨fun a b => funext fun d => d.elim0⟩
  intro k
  have ek := Host.reduce_andi_all _ init hr hu ix0 e (ix1 k)
  obtain ⟨e0, e1⟩ := IntOp.andi_eq_one.1 ek
  exact toNat_lt_of_signed _ e0 e1

/-- Under the precondition every word of the anchor, positive and negative index vectors names a row of the table. -/
theorem inRange_of_pre {F : FTy → Type} [FloatOps F] (x0 : FVec F Cert.Pre_finite_inputs.S512x256 .f32)
    (x1 : IVec Cert.Pre_finite_inputs.S512 32) (x2 x3 x4 : IVec Cert.Pre_finite_inputs.S225324 32)
    (h : Cert.Pre_finite_inputs.fn (F := F) x0 x1 x2 x3 x4 = fun _ => 1#1) :
    InRange x2 ∧ InRange x3 ∧ InRange x4 := by
  -- the precondition at its one index: ((finite ∧ all₂) ∧ all₃) ∧ all₄ = 1, a conjunction of bits
  have e := congrFun h ix0
  dsimp only [Cert.Pre_finite_inputs.fn, Cert.Pre_finite_inputs.fn_part1] at e
  -- a conjunction of bits is 1 exactly when both are: peel the three index conjuncts off, outermost first
  obtain ⟨e123, e4⟩ := IntOp.andi_eq_one.1 (show IntOp.andi _ _ = 1#1 from e)
  obtain ⟨e12, e3⟩ := IntOp.andi_eq_one.1 (show IntOp.andi _ _ = 1#1 from e123)
  obtain ⟨_, e2⟩ := IntOp.andi_eq_one.1 (show IntOp.andi _ _ = 1#1 from e12)
  exact ⟨inRange_of_all x2 _ _ _ _ e2, inRange_of_all x3 _ _ _ _ e3, inRange_of_all x4 _ _ _ _ e4⟩

end Cert.Triplet.Pre

end
-- ==== Proof.LibGatherRows.lean ====
/-
  ROW GATHERS READ AT AN INDEX. A table of rows indexed along its first axis by a column of integer positions —
  `table[idx]`, a take along axis 0 — is a gather whose first operand axis is collapsed and start-indexed, whose
  remaining operand axes are the result's offset axes, whose start indices are an [E × 1] array with the index vector on
  axis 1, and which has no batching axes. Result row `e` is the table's row at position `idx[e, 0]`, read as a SIGNED
  integer and CLAMPED into [0, N − 1]: a negative position reads row 0, one past the end reads the last row. Stated for a
  table of rank 2 (rows of `C` entries) and of rank 3 (rows of `H × D` entries), for any dimension-numbers record
  whose fields are the ones above; and, for a position known to be in range, with the clamp gone.
-/
import Idealize.ShloMosaic.PureOps
import Idealize.ShloMosaic.Lib.ValueIdx

namespace Cert.Att.Lib

open Idealize.ShloMosaic Idealize.ShloMosaic.ValueIdx

/-- THE ROW GATHER, RANK 2. For an [N × C] table, an [E × 1] array of start indices and an [E × C] result, with the
    dimension numbers of a take along axis 0 (`hoff` … `hivd`: offset axis 1, collapsed axis 0, no operand batching axes,
    start index map [0], index vector on axis 1 — each closed by `rfl` at a literal record; the slice sizes and the
    start-indices batching axes are not needed, the record's own well-formedness gives what is used of them): the result
    at (e, c) is the table at (r, c), where r is the start index `idx[e, 0]` read signed and clamped into [0, N − 1]. -/
theorem gather_rows2 {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1) (hN : 0 < N)
    (x : (⟨2, ![N, C]⟩ : Shape).Idx → α) (idx : IVec ⟨2, ![E, 1]⟩ w) (e : Fin E) (c : Fin C) :
    Host.gather d x idx (ix2 e c) = x (ix2 ⟨min (idx (ix2 e 0)).toInt.toNat (N - 1), by omega⟩ c) := by
  -- the collapsed axis has slice size 1, so the clamp is to N − 1
  have hsl : d.sliceSizes 0 = 1 := d.slice_collapsed 0 (by rw [hcoll]; exact List.mem_singleton.mpr rfl)
  -- with the record's fields substituted, every list of axes below is a literal and computes
  obtain ⟨off, coll, ob, sb, sim, ivd, ss, wf⟩ := d
  dsimp only at hoff hcoll hob hsim hivd hsl
  subst hoff hcoll hob hsim hivd
  unfold Host.gather
  congr 1
  funext a
  refine Fin.ext ?_
  match a with
  | ⟨0, _⟩ =>
    -- axis 0: start-indexed and collapsed; no batching coordinate, no offset coordinate
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (List.mem_singleton.mpr rfl)]
    show min (idx _).toInt.toNat (N - ss 0) = _
    rw [hsl]
    -- the start index is read at (e, 0): the result's batch axis 0 gives the row, the index vector has one component
    refine congrArg (fun z => min (idx z).toInt.toNat (N - 1)) ?_
    funext b
    refine Fin.ext ?_
    match b with
    | ⟨0, _⟩ => rfl
    | ⟨1, _⟩ => rfl
  | ⟨1, _⟩ =>
    -- axis 1: not start-indexed (start 0), not batching; its offset coordinate is the result's coordinate on axis 1
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start
    rw [dif_neg (show (1 : Fin 2) ∉ ([0] : List (Fin 2)) by decide)]
    simp only [Nat.add_zero, Nat.zero_add]
    rfl

/-- THE ROW GATHER, RANK 2, AT A POSITION IN RANGE. When the start index `idx[e, 0]`, read signed, is the row number `n`
    of the table, the clamp does nothing: the result at (e, c) is the table at (n, c). -/
theorem gather_rows2_of_eq {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (c : Fin C)
    (n : Fin N) (hn : (idx (ix2 e 0)).toInt = (n.val : Int)) :
    Host.gather d x idx (ix2 e c) = x (ix2 n c) := by
  have hN : 0 < N := Nat.lt_of_le_of_lt (Nat.zero_le _) n.isLt
  rw [gather_rows2 d hoff hcoll hob hsim hivd hN x idx e c]
  have hrow : (⟨min (idx (ix2 e 0)).toInt.toNat (N - 1), by omega⟩ : Fin N) = n := by
    refine Fin.ext ?_
    show min (idx (ix2 e 0)).toInt.toNat (N - 1) = n.val
    have := n.isLt
    omega
  rw [hrow]

/-- THE ROW GATHER, RANK 3. For an [N × H × D] table, an [E × 1] array of start indices and an [E × H × D] result, with
    the dimension numbers of a take along axis 0 (`hoff` … `hivd`: offset axes 1 and 2, collapsed axis 0, no operand
    batching axes, start index map [0], index vector on axis 1 — each closed by `rfl` at a literal record): the result at
    (e, h, j) is the table at (r, h, j), where r is the start index `idx[e, 0]` read signed and clamped into [0, N − 1]. -/
theorem gather_rows3 {α : Type} {N H D E w : Nat} (d : GatherDims ⟨3, ![N, H, D]⟩ ⟨2, ![E, 1]⟩ ⟨3, ![E, H, D]⟩)
    (hoff : d.offsetDims = [1, 2]) (hcoll : d.collapsedSliceDims = [0]) (hob : d.operandBatchingDims = [])
    (hsim : d.startIndexMap = [0]) (hivd : d.indexVectorDim = 1) (hN : 0 < N)
    (x : (⟨3, ![N, H, D]⟩ : Shape).Idx → α) (idx : IVec ⟨2, ![E, 1]⟩ w) (e : Fin E) (h : Fin H) (j : Fin D) :
    Host.gather d x idx (ix3 e h j) = x (ix3 ⟨min (idx (ix2 e 0)).toInt.toNat (N - 1), by omega⟩ h j) := by
  have hsl : d.sliceSizes 0 = 1 := d.slice_collapsed 0 (by rw [hcoll]; exact List.mem_singleton.mpr rfl)
  obtain ⟨off, coll, ob, sb, sim, ivd, ss, wf⟩ := d
  dsimp only at hoff hcoll hob hsim hivd hsl
  subst hoff hcoll hob hsim hivd
  unfold Host.gather
  congr 1
  funext a
  refine Fin.ext ?_
  match a with
  | ⟨0, _⟩ =>
    -- axis 0: start-indexed and collapsed; no batching coordinate, no offset coordinate
    show GatherDims.start _ (ix3 e h j) idx 0 + GatherDims.batchCoord _ (ix3 e h j) 0 + GatherDims.offCoord _ (ix3 e h j) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (List.mem_singleton.mpr rfl)]
    show min (idx _).toInt.toNat (N - ss 0) = _
    rw [hsl]
    refine congrArg (fun z => min (idx z).toInt.toNat (N - 1)) ?_
    funext b
    refine Fin.ext ?_
    match b with
    | ⟨0, _⟩ => rfl
    | ⟨1, _⟩ => rfl
  | ⟨1, _⟩ =>
    -- axis 1: start 0, no batching; its offset coordinate is the result's coordinate on axis 1
    show GatherDims.start _ (ix3 e h j) idx 1 + GatherDims.batchCoord _ (ix3 e h j) 1 + GatherDims.offCoord _ (ix3 e h j) 1 = h.val
    rw [GatherDims.batchCoord_eq_zero _ _ _ List.not_mem_nil]
    unfold GatherDims.start
    rw [dif_neg (show (1 : Fin 3) ∉ ([0] : List (Fin 3)) by decide)]
    simp only [Nat.add_zero, Nat.zero_add]
    rfl
  | ⟨2, _⟩ =>
    -- axis 2: start 0, no batching; its offset coordinate is the result's coordinate on axis 2
    show GatherDims.start _ (ix3 e h j) idx 2 + GatherDims.batchCoord _ (ix3 e h j) 2 + GatherDims.offCoord _ (ix3 e h j) 2 = j.val
    rw [GatherDims.batchCoord_eq_zero _ _ _ List.not_mem_nil]
    unfold GatherDims.start
    rw [dif_neg (show (2 : Fin 3) ∉ ([0] : List (Fin 3)) by decide)]
    simp only [Nat.add_zero, Nat.zero_add]
    rfl

/-- THE ROW GATHER, RANK 3, AT A POSITION IN RANGE. When the start index `idx[e, 0]`, read signed, is the row number `n`
    of the table, the clamp does nothing: the result at (e, h, j) is the table at (n, h, j). -/
theorem gather_rows3_of_eq {α : Type} {N H D E w : Nat} (d : GatherDims ⟨3, ![N, H, D]⟩ ⟨2, ![E, 1]⟩ ⟨3, ![E, H, D]⟩)
    (hoff : d.offsetDims = [1, 2]) (hcoll : d.collapsedSliceDims = [0]) (hob : d.operandBatchingDims = [])
    (hsim : d.startIndexMap = [0]) (hivd : d.indexVectorDim = 1)
    (x : (⟨3, ![N, H, D]⟩ : Shape).Idx → α) (idx : IVec ⟨2, ![E, 1]⟩ w) (e : Fin E) (h : Fin H) (j : Fin D)
    (n : Fin N) (hn : (idx (ix2 e 0)).toInt = (n.val : Int)) :
    Host.gather d x idx (ix3 e h j) = x (ix3 n h j) := by
  have hN : 0 < N := Nat.lt_of_le_of_lt (Nat.zero_le _) n.isLt
  rw [gather_rows3 d hoff hcoll hob hsim hivd hN x idx e h j]
  have hrow : (⟨min (idx (ix2 e 0)).toInt.toNat (N - 1), by omega⟩ : Fin N) = n := by
    refine Fin.ext ?_
    show min (idx (ix2 e 0)).toInt.toNat (N - 1) = n.val
    have := n.isLt
    omega
  rw [hrow]

end Cert.Att.Lib
-- ==== Proof.RefValue.lean ====
/-
  The reference's result at the ideal instance is the loss of the spec. Each of its three gathers reads, at triplet k, the
  table's row named by the k-th word: a word in range is not negative, so the reference's wrap-around of negative positions
  leaves it alone, and it is not past the last row, so the gather's clamp does too. The row sums, the square roots, the clamp
  by ε, the quotient, the two differences, the margin and the maximum with zero are then the spec's operations one for one,
  the host's sums each "zero plus the sum", and the last two operations the sum over the triplets and the division by their
  number.
-/
import proofs.«406273_j13786845020971_2_alg».proof.Proof.Gen.ReferenceIdeal.Read
import proofs.«406273_j13786845020971_2_alg».proof.Proof.LibGatherRows
import proofs.«406273_j13786845020971_2_alg».proof.Proof.TripletSpec
import Idealize.ShloMosaic.Lib.StableHlo.Predicate
import Idealize.ShloMosaic.Lib.ValueIdxRank1

noncomputable section

namespace Cert.Triplet.Ref

open Idealize.ShloMosaic Idealize.ShloMosaic.ValueIdx Cert.ReferenceIdeal Cert.ReferenceIdeal.Gen Cert.Triplet
open Cert.ReferenceIdeal.Read Idealize.ShloMosaic.StableHlo

/-- A word below 512 is not negative, so the wrap-around of negative positions (add 512 when below zero) returns it. -/
theorem wrap_of_lt (w : BitVec 32) (h : w.toNat < 512) :
    Scalar.select (IntOp.cmpi .slt w 0#32) (IntOp.addi w 512#32) w = w := by
  have hc : ¬ IntOp.cmpi .slt w 0#32 = 1#1 := by
    rw [Predicate.slt_iff_toNat (by omega) (by decide)]
    exact Nat.not_lt_zero _
  rw [eq_zero_of_ne_one hc, select_zero]

/-- An index of the [225324 × 256] array whose coordinates are k and c is (k, c). -/
theorem idx_kc (j : S225324x256.Idx) (k : Fin 225324) (c : Fin 256) (h0 : (j 0).val = k.val) (h1 : (j 1).val = c.val) :
    j = ix2 k c := by
  funext a
  match a with
  | ⟨0, _⟩ => exact Fin.ext h0
  | ⟨1, _⟩ => exact Fin.ext h1

/-- The reference makes its three columns of start indices by one chain of operations, applied to each index vector in
    turn: each word, 512 added when it is negative, set in a column. Here it is with the index vector a variable: at (k, 0),
    for a vector in range, the column holds the k-th word itself. -/
theorem col_at (x : (⟨S225324, .i32⟩ : BufTy).Contents (Elt Ideal)) (hx : InRange x) (k : Fin 225324) :
    val_main_v5 (F := Ideal) x (ix2 k 0) = x (ix1 k) := by
  rw [val_main_v5_apply, show idx_main_v5 (ix2 k (0 : Fin 1)) = ix1 k from funext fun a => match a with | ⟨0, _⟩ => rfl,
    val_main_v4_apply, val_main_v1_apply, val_main_v0_apply, val_main_c_apply, val_main_v3_apply, val_main_v2_apply,
    val_main_c_0_apply]
  exact wrap_of_lt _ (hx k)

/-- A row gather at (k, c), the start index at (k, 0) being an in-range word: entry c of the row the word names. -/
theorem gather_at (x0 : (⟨S512x256, .f32⟩ : BufTy).Contents (Elt Ideal)) (x : (⟨S225324, .i32⟩ : BufTy).Contents (Elt Ideal))
    (hx : InRange x) (col : (⟨S225324x1, .i32⟩ : BufTy).Contents (Elt Ideal))
    (hcol : ∀ k : Fin 225324, col (ix2 k 0) = x (ix1 k)) (k : Fin 225324) (c : Fin 256) :
    Host.gather gather_S512x256_S225324x1_S225324x256_1_0_n_n_0_1_1256 x0 col (ix2 k c)
      = rowsOf x0 (rowOf (x (ix1 k))) c := by
  refine Cert.Att.Lib.gather_rows2_of_eq _ rfl rfl rfl rfl rfl x0 col k c (rowOf (x (ix1 k))) ?_
  rw [hcol k, Predicate.toInt_eq_toNat_of_lt (by have := hx k; omega), rowOf_val_of_lt (hx k)]

/-- The three gathers are one gather, of the table at the column of an index vector. Here it is with the index vector a
    variable: at (k, c) it holds entry c of the table's row named by the k-th word. -/
theorem rows_at (x0 : (⟨S512x256, .f32⟩ : BufTy).Contents (Elt Ideal)) (x : (⟨S225324, .i32⟩ : BufTy).Contents (Elt Ideal))
    (hx : InRange x) (k : Fin 225324) (c : Fin 256) :
    val_main_v6 (F := Ideal) x0 x (ix2 k c) = rowsOf x0 (rowOf (x (ix1 k))) c :=
  gather_at x0 x hx (val_main_v5 (F := Ideal) x) (col_at x hx) k c

/-- The six row sums are one sum: from zero, the products of the entries of the rows gathered by two index vectors. Here it
    is with the two vectors variables: at triplet k, the inner product of the rows the two k-th words name. -/
theorem dot_at (x0 : (⟨S512x256, .f32⟩ : BufTy).Contents (Elt Ideal)) (xa xb : (⟨S225324, .i32⟩ : BufTy).Contents (Elt Ideal))
    (ha : InRange xa) (hb : InRange xb) (k : Fin 225324) :
    val_main_v22 (F := Ideal) x0 xa xb (ix1 k)
      = ∑ c, rowsOf x0 (rowOf (xa (ix1 k))) c * rowsOf x0 (rowOf (xb (ix1 k))) c := by
  rw [val_main_v22_apply, val_main_cst_apply, Ideal.ofBits_def, Ideal.ofBits_zero_f32, zero_add]
  refine Finset.sum_congr rfl fun c _ => ?_
  rw [idx_kc (idx_main_v22 (ix1 k) c) k c rfl rfl, val_main_v21_apply, rows_at x0 xa ha k c,
    show val_main_v13 (F := Ideal) x0 xb (ix2 k c) = _ from rows_at x0 xb hb k c]
  rfl

/-- The two distances are one function of a pair of index vectors. Here it is with the two vectors variables: at triplet
    k, one minus the inner product of the two rows over the product of their norms clamped by ε; a squared norm is the
    inner product of a row with itself. -/
theorem dist_at (x0 : (⟨S512x256, .f32⟩ : BufTy).Contents (Elt Ideal)) (xa xb : (⟨S225324, .i32⟩ : BufTy).Contents (Elt Ideal))
    (ha : InRange xa) (hb : InRange xb) (k : Fin 225324) :
    val_main_v30 (F := Ideal) x0 xa xb (ix1 k)
      = cosDist (rowsOf x0 (rowOf (xa (ix1 k)))) (rowsOf x0 (rowOf (xb (ix1 k)))) := by
  rw [val_main_v30_apply, val_main_v29_apply, val_main_cst_6_apply, val_main_v28_apply, val_main_v27_apply, val_main_v25_apply,
    val_main_v23_apply, val_main_v24_apply, val_main_v26_apply, val_main_cst_5_apply, dot_at x0 xa xb ha hb k,
    show val_main_call0_v1 (F := Ideal) x0 xa (ix1 k) = _ from dot_at x0 xa xa ha ha k,
    show val_main_call1_v1 (F := Ideal) x0 xb (ix1 k) = _ from dot_at x0 xb xb hb hb k]
  rfl

/-- Below the number of triplets the padded index vector is the index vector. -/
theorem padIdx_fin (x : (⟨S225324, .i32⟩ : BufTy).Contents (Elt Ideal)) (k : Fin 225324) : padIdx x k.val = x (ix1 k) := by
  unfold padIdx
  rw [dif_pos k.isLt]

/-- The hinge at triplet k: the distance to the positive less the distance to the negative, plus the margin, cut off below
    at zero. -/
theorem hinge_at (x0 : (⟨S512x256, .f32⟩ : BufTy).Contents (Elt Ideal)) (x2 x3 x4 : (⟨S225324, .i32⟩ : BufTy).Contents (Elt Ideal))
    (h2 : InRange x2) (h3 : InRange x3) (h4 : InRange x4) (k : Fin 225324) :
    val_main_v44 (F := Ideal) x0 x2 x3 x4 (ix1 k) = term x0 x2 x3 x4 k.val := by
  rw [val_main_v44_apply, val_main_v43_apply, val_main_v41_apply, val_main_v42_apply, val_main_cst_10_apply,
    val_main_call4_v0_apply, val_main_call4_cst_apply, dist_at x0 x2 x3 h2 h3 k,
    show val_main_v40 (F := Ideal) x0 x2 x4 (ix1 k) = _ from dist_at x0 x2 x4 h2 h4 k]
  unfold term
  rw [padIdx_fin x2 k, padIdx_fin x3 k, padIdx_fin x4 k]
  rfl

/-- A sum over the positions of a vector of 225324 entries is the sum over their numbers. -/
theorem sum_positions (f : S225324.Idx → EReal) : ∑ j, f j = ∑ k : Fin 225324, f (ix1 k) :=
  (Equiv.sum_comp (idxEquiv1 (n := 225324)).symm f).symm

/-- The reference's last stage, as a function of the table and the three index vectors, is the loss. -/
theorem ref_value (x0 : (⟨S512x256, .f32⟩ : BufTy).Contents (Elt Ideal)) (x2 x3 x4 : (⟨S225324, .i32⟩ : BufTy).Contents (Elt Ideal))
    (h2 : InRange x2) (h3 : InRange x3) (h4 : InRange x4) :
    Cert.ReferenceIdeal.Read.val_main_v46 (F := Ideal) x0 x2 x3 x4 = fun _ => loss x0 x2 x3 x4 := by
  funext i
  rw [val_main_v46_apply, val_main_cst_12_apply, val_main_v45_apply, val_main_cst_11_apply, sum_positions,
    Finset.sum_congr rfl fun k _ => hinge_at x0 x2 x3 x4 h2 h3 h4 k]
  simp only [Ideal.ofBits_def, Ideal.ofBits_zero_f32, zero_add]
  rfl

end Cert.Triplet.Ref

end
-- ==== Proof.TileSelect.lean ====
/-
  The kernel's gather. The body compares each of a tile's 2048 index words with the positions 0 … 511 (a word broadcast
  along a third axis against an iota along it), turns the comparison bits into the floats 0 and 1, lays the [16, 128, 512]
  result out as [2048, 512] rows and multiplies it into the [512, 256] table: row r of the product is
  ∑ₖ [word r = k] · table row k. When word r names a row of the table exactly one summand is not a product with 0, and the
  product's row r is that row of the table.
-/
import proofs.«406273_j13786845020971_2_alg».proof.Proof.Gen.KernelIdeal.Skeleton
import proofs.«406273_j13786845020971_2_alg».proof.Proof.TripletSpec
import Idealize.ShloMosaic.Lib.Pipeline.Value
import Idealize.ShloMosaic.Lib.ValueLayout
import Idealize.ShloMosaic.PureOps.Ideal.Laws

noncomputable section

namespace Cert.Triplet.Tile

open Idealize.ShloMosaic Idealize.ShloMosaic.ValueIdx Cert.KernelIdeal Cert.KernelIdeal.Gen Cert.Triplet

/-! ## The comparison floats at an entry, the product at an entry, and the words below 512 -/
namespace Select

/-- The word a row of the comparison reads: the block's word at (0, p, q), whatever the third coordinate. -/
theorem words_apply (b : Vec Ideal S1x16x128 .i32) (p : Fin 16) (q : Fin 128) (k : Fin 512) :
    broadcastTo S16x128x512
        (shapeCast S16x128x1 (shapeCast S16x128 b shapeCasts_S1x16x128_S16x128) shapeCasts_S16x128_S16x128x1)
        broadcasts_S16x128x1_S16x128x512 (ix3 p q k)
      = b (ix3 (0 : Fin 1) p q) := by
  refine (broadcastTo_apply _ _ (ix3 p q k) (ix3 p q (0 : Fin 1)) (fun a => match a with
    | ⟨0, _⟩ => rfl
    | ⟨1, _⟩ => rfl
    | ⟨2, _⟩ => rfl)).trans ?_
  refine (shapeCast_apply _ _ (ix3 p q (0 : Fin 1)) (ix2 p q) (by
    rw [Shape.rowMajor_val_two, Shape.rowMajor_val_three]
    show p.val * 128 + q.val = (p.val * 128 + q.val) * 1 + 0
    omega)).trans ?_
  exact shapeCast_apply _ _ (ix2 p q) (ix3 (0 : Fin 1) p q) (by
    rw [Shape.rowMajor_val_three, Shape.rowMajor_val_two]
    show (0 * 16 + p.val) * 128 + q.val = p.val * 128 + q.val
    omega)

/-- The position counter along the third axis reads that coordinate as a word. -/
theorem counter_apply (p : Fin 16) (q : Fin 128) (k : Fin 512) :
    iota .tc S16x128x512 32 [2] iota_S16x128x512_d2_w32 (ix3 p q k) = BitVec.ofNat 32 k.val :=
  iota_single_apply .tc S16x128x512 32 2 iota_S16x128x512_d2_w32 (ix3 p q k)

/-- The comparison floats laid out as [2048, 512] rows: what the product's left factor is. -/
def hot (b : Vec Ideal S1x16x128 .i32) : FVec Ideal S2048x512 .bf16 :=
  shapeCast S2048x512
    (truncf .bf16
      (sitofp .f32
        (extui 32
          (cmpi .eq
            (broadcastTo S16x128x512
              (shapeCast S16x128x1 (shapeCast S16x128 b shapeCasts_S1x16x128_S16x128) shapeCasts_S16x128_S16x128x1)
              broadcasts_S16x128x1_S16x128x512)
            (iota .tc S16x128x512 32 [2] iota_S16x128x512_d2_w32))
          natLt_1_32))
      bitsLt_bf16_f32)
    shapeCasts_S16x128x512_S2048x512

/-- Entry (r, k) of the comparison floats: the float of the bit "word r of the tile equals k". Row r of the [2048, 512]
    layout is row (r / 128, r % 128) of the [16, 128, 512] one, both at position (r / 128 · 128 + r % 128) · 512 + k. -/
theorem hot_apply (b : Vec Ideal S1x16x128 .i32) (r : Fin 2048) (k : Fin 512) :
    hot b (ix2 r k)
      = FloatOps.sitofp (F := Ideal) .f32 ((IntOp.cmpi .eq (b (blk3 r)) (BitVec.ofNat 32 k.val)).setWidth 32) := by
  have hp : r.val / 128 < 16 := by have := r.isLt; omega
  have hq : r.val % 128 < 128 := Nat.mod_lt _ (by decide)
  unfold hot
  refine (shapeCast_apply _ _ (ix2 r k) (ix3 (⟨r.val / 128, hp⟩ : Fin 16) (⟨r.val % 128, hq⟩ : Fin 128) k) (by
    rw [Shape.rowMajor_val_three, Shape.rowMajor_val_two]
    show (r.val / 128 * 128 + r.val % 128) * 512 + k.val = r.val * 512 + k.val
    omega)).trans ?_
  rw [truncf_apply, sitofp_apply, extui_apply]
  show FloatOps.sitofp (F := Ideal) .f32 ((IntOp.cmpi .eq
      (broadcastTo S16x128x512
        (shapeCast S16x128x1 (shapeCast S16x128 b shapeCasts_S1x16x128_S16x128) shapeCasts_S16x128_S16x128x1)
        broadcasts_S16x128x1_S16x128x512 (ix3 (⟨r.val / 128, hp⟩ : Fin 16) (⟨r.val % 128, hq⟩ : Fin 128) k))
      (iota .tc S16x128x512 32 [2] iota_S16x128x512_d2_w32 (ix3 (⟨r.val / 128, hp⟩ : Fin 16) (⟨r.val % 128, hq⟩ : Fin 128) k))).setWidth 32) = _
  rw [words_apply, counter_apply]
  rfl

/-- The float of a comparison bit that holds is 1. -/
theorem bit_float_of_eq {w v : BitVec 32} (h : w = v) :
    FloatOps.sitofp (F := Ideal) .f32 ((IntOp.cmpi .eq w v).setWidth 32) = 1 := by
  rw [IntOp.cmpi_eq.mpr h]
  show (((((1#1 : BitVec 1).setWidth 32).toInt : ℤ) : ℝ) : EReal) = 1
  rw [show ((1#1 : BitVec 1).setWidth 32).toInt = 1 by decide, Int.cast_one, EReal.coe_one]

/-- The float of a comparison bit that fails is 0. -/
theorem bit_float_of_ne {w v : BitVec 32} (h : w ≠ v) :
    FloatOps.sitofp (F := Ideal) .f32 ((IntOp.cmpi .eq w v).setWidth 32) = 0 := by
  rw [eq_zero_of_ne_one (fun h1 => h (IntOp.cmpi_eq.mp h1))]
  show (((((0#1 : BitVec 1).setWidth 32).toInt : ℤ) : ℝ) : EReal) = 0
  rw [show ((0#1 : BitVec 1).setWidth 32).toInt = 0 by decide, Int.cast_zero, EReal.coe_zero]

/-- The left factor's row coordinate at an entry of the product is the entry's row. -/
theorem lhs_axis0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide),
    dif_pos (show (0 : Fin S2048x512.rank) ∈ dot_S2048x512_S512x256_S2048x256_1_0_0_1_n_n.lhsNonContracting by decide)]
  rfl

/-- The left factor's column coordinate is the summation position. -/
theorem lhs_axis1 (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q

/-- The right factor's row coordinate is the summation position. -/
theorem rhs_axis0 (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q

/-- The right factor's column coordinate is the entry's column. -/
theorem rhs_axis1 (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide),
    dif_pos (show (1 : Fin S512x256.rank) ∈ dot_S2048x512_S512x256_S2048x256_1_0_0_1_n_n.rhsNonContracting by decide)]
  rfl

/-- The product into the zero accumulator, read at an entry: the sum over the 512 positions of left row times right
    column. The summation index of the product is its one coordinate. -/
theorem prod_apply (A : FVec Ideal S2048x512 .bf16) (B : FVec Ideal S512x256 .bf16) (r : Fin 2048) (d : Fin 256) :
    matmul dot_S2048x512_S512x256_S2048x256_1_0_0_1_n_n none A B (constant (F := Ideal) S2048x256 .f32 0x00000000#32) (ix2 r d)
      = ∑ k : Fin 512, A (ix2 r k) * B (ix2 k d) := by
  show FloatOps.matmul dot_S2048x512_S512x256_S2048x256_1_0_0_1_n_n none A B (constant S2048x256 .f32 0x00000000#32) (ix2 r d) = _
  rw [Ideal.matmul_constant_zero_apply,
    ← Equiv.sum_comp (contrEquiv1 dot_S2048x512_S512x256_S2048x256_1_0_0_1_n_n 512 rfl rfl).symm]
  refine Finset.sum_congr rfl fun k _ => ?_
  have hk := contrEquiv1_symm_val dot_S2048x512_S512x256_S2048x256_1_0_0_1_n_n 512 rfl rfl k
  have el : dot_S2048x512_S512x256_S2048x256_1_0_0_1_n_n.lhsIdx (ix2 r d)
      ((contrEquiv1 dot_S2048x512_S512x256_S2048x256_1_0_0_1_n_n 512 rfl rfl).symm k) = ix2 r k :=
    funext fun a => Fin.ext (by
      match a with
      | ⟨0, _⟩ => exact lhs_axis0 _ _
      | ⟨1, _⟩ => exact (lhs_axis1 _ _).trans hk)
  have er : dot_S2048x512_S512x256_S2048x256_1_0_0_1_n_n.rhsIdx (ix2 r d)
      ((contrEquiv1 dot_S2048x512_S512x256_S2048x256_1_0_0_1_n_n 512 rfl rfl).symm k) = ix2 k d :=
    funext fun a => Fin.ext (by
      match a with
      | ⟨0, _⟩ => exact (rhs_axis0 _ _).trans hk
      | ⟨1, _⟩ => exact rhs_axis1 _ _)
  rw [el, er]

/-- A word below 512 is the word of its own row number. -/
theorem word_eq_ofNat_rowOf {w : BitVec 32} (h : w.toNat < 512) : w = BitVec.ofNat 32 (rowOf w).val := by
  apply BitVec.eq_of_toNat_eq
  rw [BitVec.toNat_ofNat, rowOf_val_of_lt h]
  exact (Nat.mod_eq_of_lt w.isLt).symm

/-- A word below 512 is the word of no other position below 512. -/
theorem word_ne_ofNat {w : BitVec 32} (h : w.toNat < 512) {k : Fin 512} (hk : k ≠ rowOf w) : w ≠ BitVec.ofNat 32 k.val := by
  intro e
  apply hk
  apply Fin.ext
  rw [rowOf_val_of_lt h, e, BitVec.toNat_ofNat]
  have := k.isLt
  exact (Nat.mod_eq_of_lt (by omega)).symm

end Select

open Select in
/-- Row r of the anchors' one-hot product is the table's row named by the tile's r-th word. -/
theorem select_rows (tbl : Vec Ideal S512x256 .bf16) (b : Vec Ideal S1x16x128 .i32)
    (hb : ∀ r : Fin 2048, (b (blk3 r)).toNat < 512) (r : Fin 2048) (d : Fin 256) :
    k0_pay4 (F := Ideal) tbl b (ix2 r d) = tbl (ix2 (rowOf (b (blk3 r))) d) := by
  have hpay : k0_pay4 (F := Ideal) tbl b
      = matmul (φ₂ := .bf16) dot_S2048x512_S512x256_S2048x256_1_0_0_1_n_n none (hot b) tbl (constant (F := Ideal) S2048x256 .f32 0x00000000#32) := by
    unfold k0_pay4 k0_pay3 hot
    rw [shapeCast_self]
  rw [hpay, prod_apply, Finset.sum_eq_single (rowOf (b (blk3 r)))]
  · rw [hot_apply, bit_float_of_eq (word_eq_ofNat_rowOf (hb r)), one_mul]
  · intro k _ hk
    rw [hot_apply, bit_float_of_ne (word_ne_ofNat (hb r) hk), zero_mul]
  · intro h
    exact absurd (Finset.mem_univ _) h

/-- The positives' and the negatives' products are the same function of the table and a block of words. -/
theorem pay5_eq (tbl : Vec Ideal S512x256 .bf16) (b : Vec Ideal S1x16x128 .i32) : k0_pay5 (F := Ideal) tbl b = k0_pay4 tbl b := rfl
theorem pay6_eq (tbl : Vec Ideal S512x256 .bf16) (b : Vec Ideal S1x16x128 .i32) : k0_pay6 (F := Ideal) tbl b = k0_pay4 tbl b := rfl

end Cert.Triplet.Tile

end
-- ==== Proof.TileHinge.lean ====
/-
  The kernel's arithmetic on a tile's gathered rows. From three [2048, 256] arrays of rows — anchors A, positives P,
  negatives N — the body takes, row by row, the inner products ⟨A, P⟩, ⟨A, A⟩, ⟨P, P⟩, ⟨A, N⟩, ⟨N, N⟩ (lane sums of products),
  the two cosine distances with the product of the norms clamped by ε, their difference plus the margin, the maximum with zero;
  multiplies row r by the float of the bit "2048 · t + r < 225324" (the tile's first position plus an iota, compared as signed
  words; nothing wraps); and sums the 2048 rows. That is the sum over the tile's positions of the spec's hinge of the three rows,
  each multiplied by 1 below the triplet count and by 0 from it on.
-/
import proofs.«406273_j13786845020971_2_alg».proof.Proof.Gen.KernelIdeal.Skeleton
import proofs.«406273_j13786845020971_2_alg».proof.Proof.TripletSpec
import Idealize.ShloMosaic.Lib.Pipeline.Value
import Idealize.ShloMosaic.Lib.ValueLayout
import Idealize.ShloMosaic.Lib.StableHlo.Predicate
import Idealize.ShloMosaic.PureOps.Ideal.Laws

noncomputable section

namespace Cert.Triplet.Tile

open Idealize.ShloMosaic Idealize.ShloMosaic.ValueIdx Cert.KernelIdeal Cert.KernelIdeal.Gen Cert.Triplet

/-- Row r of a [2048, 256] array. -/
def rowAt (X : FVec Ideal S2048x256 .f32) (r : Fin 2048) : Row := fun d => X (ix2 r d)

/-! ## Reading the layout operations at an index -/

/-- A vector of length a cast to a column [a, 1] reads, at (r, u), the vector at r: the two row-major positions are
    r and r · 1 + u with u = 0. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- The lane sums of a [2048, 256] array, kept as a column: at row r the sum over the 256 features of that row. -/
theorem rowSum (X : FVec Ideal S2048x256 .f32) (r : Fin 2048) (u : Fin 1) :
    shapeCast S2048x1 (multiReduction .add [1] S2048 X 0x00000000#32 reduces_S2048x256_S2048 (.inl rfl) rfl) shapeCasts_S2048_S2048x1 (ix2 r u)
      = ∑ d : Fin 256, X (ix2 r d) := by
  refine (shapeCast_a_a1_apply _ shapeCasts_S2048_S2048x1 r u).trans ?_
  refine (Ideal.multiReduction_add_single X 0x00000000#32 reduces_S2048x256_S2048 (.inl rfl) rfl (ix1 r)).trans ?_
  refine Finset.sum_congr rfl (fun d _ => ?_)
  refine congrArg X ?_
  funext a
  match a with
  | ⟨0, _⟩ => rfl
  | ⟨1, _⟩ => rfl

/-- The sum of a [2048, 1] column over its rows. -/
theorem colSum (V : FVec Ideal S2048x1 .f32) (u : Fin 1) :
    multiReduction .add [0] S1 V 0x00000000#32 reduces_S2048x1_S1 (.inl rfl) rfl (ix1 u) = ∑ r : Fin 2048, V (ix2 r u) := by
  refine (Ideal.multiReduction_add_single V 0x00000000#32 reduces_S2048x1_S1 (.inl rfl) rfl (ix1 u)).trans ?_
  refine Finset.sum_congr rfl (fun r _ => ?_)
  refine congrArg V ?_
  funext a
  match a with
  | ⟨0, _⟩ => rfl
  | ⟨1, _⟩ => rfl

/-! ## The mask: 1 on a real triplet's position, 0 on the padding -/

/-- The word of position r of tile t: 2048 · t + r stays below 111 · 2048 = 227328 < 2³², so the product and the sum of
    words are the word of the number. -/
theorem posWord (t : Fin 111) (r : Fin 2048) :
    IntOp.addi (Scalar.muli (BitVec.ofNat 32 t.val) 2048#32) (BitVec.ofNat 32 r.val) = BitVec.ofNat 32 (t.val * 2048 + r.val) := by
  show BitVec.ofNat 32 t.val * 2048#32 + BitVec.ofNat 32 r.val = BitVec.ofNat 32 (t.val * 2048 + r.val)
  apply BitVec.eq_of_toNat_eq
  have ht := t.isLt
  have hr := r.isLt
  simp only [BitVec.toNat_add, BitVec.toNat_mul, BitVec.toNat_ofNat]
  omega

/-- The float of the bit "position < 225324" at row r is the spec's keep: both numbers are below 2³¹, so the signed
    comparison of their words is the comparison of the numbers; the bit widened to a word is 1 or 0, and so is its float. -/
theorem maskAt (t : Fin 111) (r : Fin 2048) (u : Fin 1) :
    (sitofp .f32
        (extui 32
          (cmpi .slt
            (addi (broadcast S2048x1 (Scalar.muli (BitVec.ofNat 32 t.val) 2048#32)) (iota .tc S2048x1 32 [0] iota_S2048x1_d0_w32))
            (broadcast S2048x1 225324#32))
          natLt_1_32) : FVec Ideal S2048x1 .f32) (ix2 r u)
      = keep (t.val * 2048 + r.val) := by
  have ht := t.isLt
  have hr := r.isLt
  show (((((IntOp.cmpi .slt
            (IntOp.addi (Scalar.muli (BitVec.ofNat 32 t.val) 2048#32) (iota .tc S2048x1 32 [0] iota_S2048x1_d0_w32 (ix2 r u)))
            225324#32).setWidth 32).toInt : ℝ) : EReal)) = keep (t.val * 2048 + r.val)
  rw [iota_single_apply]
  show (((((IntOp.cmpi .slt
            (IntOp.addi (Scalar.muli (BitVec.ofNat 32 t.val) 2048#32) (BitVec.ofNat 32 r.val))
            (BitVec.ofNat 32 225324)).setWidth 32).toInt : ℝ) : EReal)) = keep (t.val * 2048 + r.val)
  rw [posWord]
  unfold keep
  by_cases h : t.val * 2048 + r.val < 225324
  · have h1 : IntOp.cmpi .slt (BitVec.ofNat 32 (t.val * 2048 + r.val)) (BitVec.ofNat 32 225324) = 1#1 :=
      (StableHlo.Predicate.slt_ofNat_iff _ _ (by omega) (by omega)).mpr h
    rw [h1, if_pos h]
    have : ((1#1 : BitVec 1).setWidth 32).toInt = 1 := by decide
    rw [this]
    norm_num
  · have h0 : IntOp.cmpi .slt (BitVec.ofNat 32 (t.val * 2048 + r.val)) (BitVec.ofNat 32 225324) = 0#1 :=
      eq_zero_of_ne_one (fun h1 => h ((StableHlo.Predicate.slt_ofNat_iff _ _ (by omega) (by omega)).mp h1))
    rw [h0, if_neg h]
    have : ((0#1 : BitVec 1).setWidth 32).toInt = 0 := by decide
    rw [this]
    norm_num

/-! ## The cosine distance and the hinge of a row -/

/-- One minus the quotient of the column of ⟨X, Y⟩ by the clamped product of the roots of the columns of ⟨X, X⟩ and ⟨Y, Y⟩ is,
    at row r, the spec's cosine distance of row r of X and row r of Y: each column at r is that row's sum of products, and
    the operations are the same in the same order. -/
theorem cosAt (X Y : FVec Ideal S2048x256 .f32) (r : Fin 2048) (u : Fin 1) :
    (subf (broadcast S2048x1 (Scalar.ofBits .f32 0x3F800000#32))
        (divf
          (shapeCast S2048x1 (multiReduction .add [1] S2048 (mulf X Y) 0x00000000#32 reduces_S2048x256_S2048 (.inl rfl) rfl) shapeCasts_S2048_S2048x1)
          (maximumf
            (mulf
              (sqrt (shapeCast S2048x1 (multiReduction .add [1] S2048 (mulf X X) 0x00000000#32 reduces_S2048x256_S2048 (.inl rfl) rfl) shapeCasts_S2048_S2048x1))
              (sqrt (shapeCast S2048x1 (multiReduction .add [1] S2048 (mulf Y Y) 0x00000000#32 reduces_S2048x256_S2048 (.inl rfl) rfl) shapeCasts_S2048_S2048x1)))
            (broadcast S2048x1 (Scalar.ofBits .f32 0x322BCC77#32)))) : FVec Ideal S2048x1 .f32) (ix2 r u)
      = cosDist (rowAt X r) (rowAt Y r) := by
  show Ideal.ofBits .f32 0x3F800000#32
      - Ideal.div
          (shapeCast S2048x1 (multiReduction .add [1] S2048 (mulf X Y) 0x00000000#32 reduces_S2048x256_S2048 (.inl rfl) rfl) shapeCasts_S2048_S2048x1 (ix2 r u))
          (max
            (Ideal.sqrt (shapeCast S2048x1 (multiReduction .add [1] S2048 (mulf X X) 0x00000000#32 reduces_S2048x256_S2048 (.inl rfl) rfl) shapeCasts_S2048_S2048x1 (ix2 r u))
              * Ideal.sqrt (shapeCast S2048x1 (multiReduction .add [1] S2048 (mulf Y Y) 0x00000000#32 reduces_S2048x256_S2048 (.inl rfl) rfl) shapeCasts_S2048_S2048x1 (ix2 r u)))
            (Ideal.ofBits .f32 0x322BCC77#32))
    = cosDist (rowAt X r) (rowAt Y r)
  rw [rowSum, rowSum, rowSum]
  rfl

/-- Row r of the masked hinge column: the difference of the two distances plus the margin, clamped at zero from below,
    times the mask, is the spec's hinge of the three rows times keep of the row's position. -/
theorem rowHinge (t : Fin 111) (A P N : FVec Ideal S2048x256 .f32) (r : Fin 2048) (u : Fin 1) :
    (mulf
      (maximumf
        (addf
          (subf
            (subf (broadcast S2048x1 (Scalar.ofBits .f32 0x3F800000#32))
              (divf
                (shapeCast S2048x1 (multiReduction .add [1] S2048 (mulf A P) 0x00000000#32 reduces_S2048x256_S2048 (.inl rfl) rfl) shapeCasts_S2048_S2048x1)
                (maximumf
                  (mulf
                    (sqrt (shapeCast S2048x1 (multiReduction .add [1] S2048 (mulf A A) 0x00000000#32 reduces_S2048x256_S2048 (.inl rfl) rfl) shapeCasts_S2048_S2048x1))
                    (sqrt (shapeCast S2048x1 (multiReduction .add [1] S2048 (mulf P P) 0x00000000#32 reduces_S2048x256_S2048 (.inl rfl) rfl) shapeCasts_S2048_S2048x1)))
                  (broadcast S2048x1 (Scalar.ofBits .f32 0x322BCC77#32)))))
            (subf (broadcast S2048x1 (Scalar.ofBits .f32 0x3F800000#32))
              (divf
                (shapeCast S2048x1 (multiReduction .add [1] S2048 (mulf A N) 0x00000000#32 reduces_S2048x256_S2048 (.inl rfl) rfl) shapeCasts_S2048_S2048x1)
                (maximumf
                  (mulf
                    (sqrt (shapeCast S2048x1 (multiReduction .add [1] S2048 (mulf A A) 0x00000000#32 reduces_S2048x256_S2048 (.inl rfl) rfl) shapeCasts_S2048_S2048x1))
                    (sqrt (shapeCast S2048x1 (multiReduction .add [1] S2048 (mulf N N) 0x00000000#32 reduces_S2048x256_S2048 (.inl rfl) rfl) shapeCasts_S2048_S2048x1)))
                  (broadcast S2048x1 (Scalar.ofBits .f32 0x322BCC77#32))))))
          (broadcast S2048x1 (Scalar.ofBits .f32 0x3E19999A#32)))
        (broadcast S2048x1 (Scalar.ofBits .f32 0x00000000#32)))
      (sitofp .f32
        (extui 32
          (cmpi .slt
            (addi (broadcast S2048x1 (Scalar.muli (BitVec.ofNat 32 t.val) 2048#32)) (iota .tc S2048x1 32 [0] iota_S2048x1_d0_w32))
            (broadcast S2048x1 225324#32))
          natLt_1_32)) : FVec Ideal S2048x1 .f32) (ix2 r u)
      = hinge (rowAt A r) (rowAt P r) (rowAt N r) * keep (t.val * 2048 + r.val) := by
  refine congrArg₂ (fun a b : EReal => a * b) ?_ (maskAt t r u)
  refine congrArg₂ (fun a b : EReal => max a b) ?_ rfl
  refine congrArg₂ (fun a b : EReal => a + b) ?_ rfl
  exact congrArg₂ (fun a b : EReal => a - b) (cosAt A P r u) (cosAt A N r u)

/-- The body's tile sum over any three arrays of gathered rows, the anchors' inner products with the positives and the
    anchors' squares passed as the body's first half computes them. -/
theorem hinge_tile (t : Fin 111) (A P N : FVec Ideal S2048x256 .f32) :
    k0_pay9 (F := Ideal) (BitVec.ofNat 32 t.val) A P N
        (shapeCast S2048x1 (multiReduction .add [1] S2048 (mulf A P) 0x00000000#32 reduces_S2048x256_S2048 (.inl rfl) rfl) shapeCasts_S2048_S2048x1)
        (mulf A A)
      = fun _ => ∑ r : Fin 2048, hinge (rowAt A r) (rowAt P r) (rowAt N r) * keep (t.val * 2048 + r.val) := by
  funext j
  rw [eq_ix2 j]
  unfold k0_pay9
  refine (shapeCast_a_1a_apply _ shapeCasts_S1_S1x1 (j 0) (j 1)).trans ?_
  refine (colSum _ (j 1)).trans ?_
  exact Finset.sum_congr rfl (fun r _ => rowHinge t A P N r (j 1))

end Cert.Triplet.Tile

end
-- ==== Proof.TileValue.lean ====
/-
  One tile of the kernel's body at the ideal instance: from the table block and the three [1, 16, 128] blocks of index
  words, the body's [1, 1] tile sum is the spec's sum over the tile's positions. The three one-hot products select the rows
  the words name (TileSelect); the rest of the body is the hinge of the selected rows, masked and summed (TileHinge).
-/
import proofs.«406273_j13786845020971_2_alg».proof.Proof.TileSelect
import proofs.«406273_j13786845020971_2_alg».proof.Proof.TileHinge

noncomputable section

namespace Cert.Triplet.Tile

open Idealize.ShloMosaic Idealize.ShloMosaic.ValueIdx Cert.KernelIdeal Cert.KernelIdeal.Gen Cert.Triplet

/-- The tile sum the body computes at grid point t is the spec's sum over the tile's positions, for index blocks whose
    words all name rows of the table. -/
theorem tile_value (t : Fin 111) (tbl : Vec Ideal S512x256 .bf16) (ba bp bn : Vec Ideal S1x16x128 .i32)
    (ha : ∀ r : Fin 2048, (ba (blk3 r)).toNat < 512) (hp : ∀ r : Fin 2048, (bp (blk3 r)).toNat < 512)
    (hn : ∀ r : Fin 2048, (bn (blk3 r)).toNat < 512) :
    k0_pay9 (F := Ideal) (BitVec.ofNat 32 t.val) (k0_pay4 tbl ba) (k0_pay5 tbl bp) (k0_pay6 tbl bn) (k0_pay7 tbl ba bp) (k0_pay8 tbl ba)
      = fun _ => ∑ r : Fin 2048, hinge (rowsOf tbl (rowOf (ba (blk3 r)))) (rowsOf tbl (rowOf (bp (blk3 r)))) (rowsOf tbl (rowOf (bn (blk3 r))))
          * keep (t.val * 2048 + r.val) := by
  have hA : ∀ r, rowAt (k0_pay4 (F := Ideal) tbl ba) r = rowsOf tbl (rowOf (ba (blk3 r))) :=
    fun r => funext fun d => select_rows tbl ba ha r d
  have hP : ∀ r, rowAt (k0_pay5 (F := Ideal) tbl bp) r = rowsOf tbl (rowOf (bp (blk3 r))) :=
    fun r => funext fun d => (congrFun (pay5_eq tbl bp) _).trans (select_rows tbl bp hp r d)
  have hN : ∀ r, rowAt (k0_pay6 (F := Ideal) tbl bn) r = rowsOf tbl (rowOf (bn (blk3 r))) :=
    fun r => funext fun d => (congrFun (pay6_eq tbl bn) _).trans (select_rows tbl bn hn r d)
  have h := hinge_tile t (k0_pay4 (F := Ideal) tbl ba) (k0_pay5 (F := Ideal) tbl bp) (k0_pay6 (F := Ideal) tbl bn)
  refine Eq.trans ?_ (h.trans ?_)
  · rfl
  · funext _
    exact Finset.sum_congr rfl fun r _ => by rw [hA r, hP r, hN r]

end Cert.Triplet.Tile

end
-- ==== Proof.Blocks.lean ====
/-
  What the kernel's windows hold at a grid point, read off the argument arrays. The three index vectors reach the kernel
  padded with zero words to 227328 positions and laid out as [111, 16, 128]; window w's block at point t is slab t of that
  array, so its word at position r of the tile is the padded vector's word at position 2048·t + r. The table reaches it
  through a change of float format, which is the identity on the extended reals: its one block is the table.
-/
import proofs.«406273_j13786845020971_2_alg».proof.Proof.Gen.KernelIdeal.Frame.Runs
import proofs.«406273_j13786845020971_2_alg».proof.Proof.TripletSpec
import Idealize.ShloMosaic.Lib.Pipeline.Value
import Idealize.ShloMosaic.Lib.ValueLayout
import Idealize.ShloMosaic.Lib.KernelVsHost
import Idealize.ShloMosaic.Lib.StableHlo.Run
import Idealize.ShloMosaic.Lib.Tactic

noncomputable section

namespace Cert.Triplet.Blocks

open Idealize.ShloMosaic Idealize.ShloMosaic.TcCoe Idealize.SL.Sem Idealize.ShloMosaic.ValueIdx
open Cert.KernelIdeal Cert.KernelIdeal.Gen Cert.Triplet

variable (m : (ℓ : Loc nD τ sig) → Buf (Elt Ideal) ℓ)

/-- The anchor words' block at point t. -/
abbrev ablk (c : Dev nD) (t : Fin cfg0.N) : Vec Ideal S1x16x128 .i32 := iblk m c 0 t
/-- The positive words' block at point t. -/
abbrev pblk (c : Dev nD) (t : Fin cfg0.N) : Vec Ideal S1x16x128 .i32 := iblk m c 1 t
/-- The negative words' block at point t. -/
abbrev nblk (c : Dev nD) (t : Fin cfg0.N) : Vec Ideal S1x16x128 .i32 := iblk m c 2 t
/-- The table's block at point t. -/
abbrev tblk (c : Dev nD) (t : Fin cfg0.N) : Vec Ideal S512x256 .bf16 := iblk m c 3 t

/-! ## A padded vector laid out as slabs, read at an index -/

/-- A vector of 225324 words continued by a zero word to 227328 positions and laid out as [111, 16, 128], read at the
    index (t, r / 128, r % 128) with r below 2048. The layout keeps row-major positions, and that index sits at position
    (16·t + r / 128)·128 + r % 128 = 2048·t + r; there the continued vector holds the vector's own word when the
    position is below 225324 and the zero word past it, which is the padded index vector of the specification. -/
theorem padded_apply (x : S225324.Idx → BitVec 32) (v : S_.Idx → BitVec 32) (hv : ∀ i, v i = 0#32)
    (hp : S225324.Pads (![0] : Fin 1 → Nat) ![2004] ![0] S227328) (hu : 0 < S_.numel)
    (hs : S227328.ShapeCasts S111x16x128) (j : S111x16x128.Idx) (t : ℕ) (r : Fin 2048)
    (h0 : (j 0).val = t) (h1 : (j 1).val = r.val / 128) (h2 : (j 2).val = r.val % 128) :
    shapeCast S111x16x128 (pad S227328 ![0] ![2004] ![0] x v hp hu) hs j = padIdx x (t * 2048 + r.val) := by
  have ht : (j 0).val < 111 := (j 0).isLt
  have hr := r.isLt
  have hk : t * 2048 + r.val < 227328 := by omega
  refine (shapeCast_apply _ hs j (ix1 ⟨t * 2048 + r.val, hk⟩) (by
    rw [Shape.rowMajor_val_one, Shape.rowMajor_val_three]
    show t * 2048 + r.val = ((j 0).val * 16 + (j 1).val) * 128 + (j 2).val
    omega)).trans ?_
  unfold padIdx
  by_cases h : t * 2048 + r.val < 225324
  · -- a position of the vector itself: no low padding, no interior padding, so the position is its own
    rw [dif_pos h]
    exact pad_apply_of_inside _ _ _ x v hp hu _ (ix1 ⟨t * 2048 + r.val, h⟩) (by
      intro d
      obtain rfl : d = 0 := Subsingleton.elim _ _
      show t * 2048 + r.val = 0 + (t * 2048 + r.val) * (0 + 1)
      omega)
  · -- a position past the vector's end: the padding word, which is zero
    rw [dif_neg h]
    refine (pad_apply_of_not_inside _ _ _ x v hp hu _ (0 : Fin 1) ?_).trans (hv _)
    intro hin
    have e : (t * 2048 + r.val - 0) / (0 + 1) < 225324 := hin.2.2
    rw [Nat.sub_zero, Nat.div_one] at e
    exact h e

/-! ## The arrays the windows read, as the kernel finds them -/

/-- The anchor window's array: the first index vector padded with the zero word and laid out as [111, 16, 128]. -/
theorem V_v1 (c : Dev nD) : (V m c main_v1 : S111x16x128.Idx → BitVec 32) =
    shapeCast S111x16x128 (pad S227328 ![0] ![2004] ![0] (m ((c : Thread nD τ).loc main_arg2)) (constantI S_ 32 0#32)
      pads_S225324_S227328_020040 h_S_) shapeCasts_S227328_S111x16x128 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The positive window's array: the second index vector, the same way. -/
theorem V_v3 (c : Dev nD) : (V m c main_v3 : S111x16x128.Idx → BitVec 32) =
    shapeCast S111x16x128 (pad S227328 ![0] ![2004] ![0] (m ((c : Thread nD τ).loc main_arg3)) (constantI S_ 32 0#32)
      pads_S225324_S227328_020040 h_S_) shapeCasts_S227328_S111x16x128 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The negative window's array: the third index vector, the same way. -/
theorem V_v5 (c : Dev nD) : (V m c main_v5 : S111x16x128.Idx → BitVec 32) =
    shapeCast S111x16x128 (pad S227328 ![0] ![2004] ![0] (m ((c : Thread nD τ).loc main_arg4)) (constantI S_ 32 0#32)
      pads_S225324_S227328_020040 h_S_) shapeCasts_S227328_S111x16x128 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The table window's array: the table in the narrower float format, which on the extended reals is the table. -/
theorem V_v6 (c : Dev nD) :
    (V m c main_v6 : S512x256.Idx → EReal) = (m ((c : Thread nD τ).loc main_arg0) : S512x256.Idx → EReal) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-! ## The windows' block indices over the grid -/

/-- The anchor window's block at point t is block (t, 0, 0). -/
theorem hidx0 : ∀ t : Fin cfg0.N, win0_0.index t 0 = t.val ∧ win0_0.index t 1 = 0 ∧ win0_0.index t 2 = 0 :=
  (by decide +kernel : ∀ t : Fin grid0.N, _)
/-- The positive window's block at point t is block (t, 0, 0). -/
theorem hidx1 : ∀ t : Fin cfg0.N, win0_1.index t 0 = t.val ∧ win0_1.index t 1 = 0 ∧ win0_1.index t 2 = 0 :=
  (by decide +kernel : ∀ t : Fin grid0.N, _)
/-- The negative window's block at point t is block (t, 0, 0). -/
theorem hidx2 : ∀ t : Fin cfg0.N, win0_2.index t 0 = t.val ∧ win0_2.index t 1 = 0 ∧ win0_2.index t 2 = 0 :=
  (by decide +kernel : ∀ t : Fin grid0.N, _)
/-- The table window's block is block (0, 0) at every point. -/
theorem hidx3 : ∀ t : Fin cfg0.N, win0_3.index t 0 = 0 ∧ win0_3.index t 1 = 0 :=
  (by decide +kernel : ∀ t : Fin grid0.N, _)

/-! ## The blocks

A block's coordinate in its array is the block index times the block's extent plus the coordinate inside the block. For
the index windows the extents are (1, 16, 128) and the block index is (t, 0, 0), so position r of the tile, which is
(0, r / 128, r % 128) inside the block, is (t, r / 128, r % 128) in the array. -/

theorem ablk_apply (c : Dev nD) (t : Fin cfg0.N) (r : Fin 2048) :
    ablk m c t (blk3 r) = padIdx (m ((c : Thread nD τ).loc main_arg2)) (t.val * 2048 + r.val) := by
  show iblk m c 0 t (blk3 r) = _
  unfold iblk
  rw [View.read_apply]
  show V m c main_v1 (((cfg0.win 0).blk t).view.emb (blk3 r)) = _
  rw [V_v1]
  exact padded_apply _ (constantI S_ 32 0#32) (fun _ => rfl) _ _ _ _ t.val r
    (by show win0_0.index t 0 * 1 + 1 * 0 = t.val; rw [(hidx0 t).1]; omega)
    (by show win0_0.index t 1 * 16 + 1 * (r.val / 128) = r.val / 128; rw [(hidx0 t).2.1]; omega)
    (by show win0_0.index t 2 * 128 + 1 * (r.val % 128) = r.val % 128; rw [(hidx0 t).2.2]; omega)

theorem pblk_apply (c : Dev nD) (t : Fin cfg0.N) (r : Fin 2048) :
    pblk m c t (blk3 r) = padIdx (m ((c : Thread nD τ).loc main_arg3)) (t.val * 2048 + r.val) := by
  show iblk m c 1 t (blk3 r) = _
  unfold iblk
  rw [View.read_apply]
  show V m c main_v3 (((cfg0.win 1).blk t).view.emb (blk3 r)) = _
  rw [V_v3]
  exact padded_apply _ (constantI S_ 32 0#32) (fun _ => rfl) _ _ _ _ t.val r
    (by show win0_1.index t 0 * 1 + 1 * 0 = t.val; rw [(hidx1 t).1]; omega)
    (by show win0_1.index t 1 * 16 + 1 * (r.val / 128) = r.val / 128; rw [(hidx1 t).2.1]; omega)
    (by show win0_1.index t 2 * 128 + 1 * (r.val % 128) = r.val % 128; rw [(hidx1 t).2.2]; omega)

theorem nblk_apply (c : Dev nD) (t : Fin cfg0.N) (r : Fin 2048) :
    nblk m c t (blk3 r) = padIdx (m ((c : Thread nD τ).loc main_arg4)) (t.val * 2048 + r.val) := by
  show iblk m c 2 t (blk3 r) = _
  unfold iblk
  rw [View.read_apply]
  show V m c main_v5 (((cfg0.win 2).blk t).view.emb (blk3 r)) = _
  rw [V_v5]
  exact padded_apply _ (constantI S_ 32 0#32) (fun _ => rfl) _ _ _ _ t.val r
    (by show win0_2.index t 0 * 1 + 1 * 0 = t.val; rw [(hidx2 t).1]; omega)
    (by show win0_2.index t 1 * 16 + 1 * (r.val / 128) = r.val / 128; rw [(hidx2 t).2.1]; omega)
    (by show win0_2.index t 2 * 128 + 1 * (r.val % 128) = r.val % 128; rw [(hidx2 t).2.2]; omega)

/-- The table window's one block has the array's own extents and sits at offset (0, 0): read through it, the array is
    the array, and the array is the table. -/
theorem tblk_eq (c : Dev nD) (t : Fin cfg0.N) :
    tblk m c t = m ((c : Thread nD τ).loc main_arg0) := by
  have hz : (fun a => win0_3.index t a * main_v6.ty.shape.size a) = fun _ => 0 := funext fun a => by
    match a with
    | ⟨0, _⟩ => show win0_3.index t 0 * 512 = 0; rw [(hidx3 t).1]
    | ⟨1, _⟩ => show win0_3.index t 1 * 256 = 0; rw [(hidx3 t).2]
  show iblk m c 3 t = _
  unfold iblk
  exact (Memref.read_access_unit_zero (Elt Ideal) main_v6 hz
    (fun a => by rw [congrFun hz a]; exact Nat.le_of_eq (Nat.zero_add _)) (V m c main_v6)).trans (V_v6 m c)

end Cert.Triplet.Blocks

end
-- ==== Proof.SumTiles.lean ====
/-
  The tiles' running sum is the sum over the triplets. A position below 227328 = 111 · 2048 is a (tile, offset) pair
  exactly once; a position from 225324 on carries the factor 0; and the running sum from zero, tile by tile, is the sum of the
  tile sums, since addition of extended reals is associative and 0 is its unit.
-/
import proofs.«406273_j13786845020971_2_alg».proof.Proof.TripletSpec

noncomputable section

namespace Cert.Triplet

open Idealize.ShloMosaic Idealize.ShloMosaic.ValueIdx

/-- The running sum after tile n is the sum of the tile sums of tiles 0, …, n: the start value is the zero of the
    extended reals, the unit of addition, and each further step adds the next tile's sum at the end. -/
theorem accum_eq_sum_range (x0 : (⟨2, ![512, 256]⟩ : Shape).Idx → EReal)
    (xa xp xn : (⟨1, ![225324]⟩ : Shape).Idx → BitVec 32) (n : ℕ) :
    accum x0 xa xp xn n = ∑ t ∈ Finset.range (n + 1), tileSum x0 xa xp xn t := by
  induction n with
  | zero =>
    show Ideal.ofBits .f32 0x00000000#32 + tileSum x0 xa xp xn 0 = _
    rw [Ideal.ofBits_zero_f32, zero_add, Finset.sum_range_one]
  | succ n ih =>
    show accum x0 xa xp xn n + tileSum x0 xa xp xn (n + 1) = _
    rw [ih, Finset.sum_range_succ _ (n + 1)]

/-- Summing n tiles of m consecutive positions each is summing the first n · m positions: position t · m + r of tile t
    at offset r runs through the block of m positions that follows the first t · m ones. -/
theorem sum_tiles_range (g : ℕ → EReal) (m n : ℕ) :
    ∑ t ∈ Finset.range n, ∑ r : Fin m, g (t * m + r.val) = ∑ k ∈ Finset.range (n * m), g k := by
  induction n with
  | zero => rw [Nat.zero_mul, Finset.range_zero, Finset.sum_empty, Finset.sum_empty]
  | succ n ih =>
    rw [Finset.sum_range_succ, ih, Nat.succ_mul, Finset.sum_range_add,
      Finset.sum_range (fun r => g (n * m + r))]

/-- The running sum after the last tile is the sum over the triplets. -/
theorem accum_last (x0 : (⟨2, ![512, 256]⟩ : Shape).Idx → EReal) (xa xp xn : (⟨1, ![225324]⟩ : Shape).Idx → BitVec 32) :
    accum x0 xa xp xn 110 = total x0 xa xp xn := by
  rw [accum_eq_sum_range]
  -- the 111 tile sums are the sum over the 227328 padded positions
  have tiles : ∑ t ∈ Finset.range (110 + 1), tileSum x0 xa xp xn t
      = ∑ k ∈ Finset.range (111 * 2048), term x0 xa xp xn k * keep k :=
    sum_tiles_range (fun k => term x0 xa xp xn k * keep k) 2048 111
  -- the padded positions are the 225324 triplets followed by 2004 positions of padding
  have split : (111 * 2048 : ℕ) = 225324 + 2004 := by norm_num
  -- on a triplet's position the factor is 1
  have head : ∑ k ∈ Finset.range 225324, term x0 xa xp xn k * keep k
      = ∑ k ∈ Finset.range 225324, term x0 xa xp xn k := by
    refine Finset.sum_congr rfl (fun k hk => ?_)
    have hk' : k < 225324 := Finset.mem_range.mp hk
    unfold keep
    rw [if_pos hk', mul_one]
  -- on the padding the factor is 0
  have tail : ∑ k ∈ Finset.range 2004, term x0 xa xp xn (225324 + k) * keep (225324 + k) = 0 := by
    refine Finset.sum_eq_zero (fun k _ => ?_)
    have hk' : ¬ (225324 + k < 225324) := by omega
    unfold keep
    rw [if_neg hk', mul_zero]
  rw [tiles, split, Finset.sum_range_add, head, tail, add_zero, Finset.sum_range]
  rfl

end Cert.Triplet

end
-- ==== Proof.KernelRun.lean ====
/-
  The idealized kernel's run, read: its result is the loss of the spec.

  At every grid point the body leaves in the carried [1, 1] scratch, and copies into the output's staging buffer, the
  scratch's previous contents plus the point's tile sum; at the first point the previous contents are the zero block the body
  has just stored. So after point n both hold the running sum of the tile sums from zero (by induction on the point, never by
  enumerating the grid). The output's block index never moves, so its buffer is written back once, after the last point, and
  its one block is the whole [1, 1] result array: the array ends at the running sum after the last tile, which is the sum of
  the hinges over the triplets. The host then reads that [1, 1] array as a scalar and divides by the triplet count: the loss.
-/
import proofs.«406273_j13786845020971_2_alg».proof.Proof.Gen.KernelIdeal.Frame
import proofs.«406273_j13786845020971_2_alg».proof.Proof.TileValue
import proofs.«406273_j13786845020971_2_alg».proof.Proof.Blocks
import proofs.«406273_j13786845020971_2_alg».proof.Proof.SumTiles
import Idealize.ShloMosaic.Lib.Pipeline.Value
import Idealize.ShloMosaic.Lib.StableHlo.Run
import Idealize.ShloMosaic.Lib.Tactic

noncomputable section

namespace Cert.Triplet.Run

open Idealize.ShloMosaic Idealize.ShloMosaic.TcCoe Idealize.SL.Sem Idealize.ShloMosaic.ValueIdx
open Idealize.ShloMosaic.Pipeline (Dat)
open Cert.KernelIdeal Cert.KernelIdeal.Gen Cert.Triplet

theorem hz2 : (![0, 0] : Fin 2 → Nat) = fun _ => 0 := funext fun a => by fin_cases a <;> rfl
theorem hz3 : (![0, 0, 0] : Fin 3 → Nat) = fun _ => 0 := funext fun a => by fin_cases a <;> rfl

/-- A load of the whole buffer after a list of stores whose LAST one went through the whole buffer reads that store's
    payload, whatever the earlier stores were. -/
theorem readCov_cons_whole {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- The tile sum the body computes at grid coordinates i from the three blocks of index words and the table block. -/
def tileOf (i : grid0.Coords) (x0 x1 x2 : Vec Ideal S1x16x128 .i32) (x3 : Vec Ideal S512x256 .bf16) : FVec Ideal S1x1 .f32 :=
  k0_pay9 (BitVec.ofNat 32 (i 0).val) (k0_pay4 x3 x0) (k0_pay5 x3 x1) (k0_pay6 x3 x2) (k0_pay7 x3 x0 x1) (k0_pay8 x3 x0)

section pieces

variable (c : Dev nD) (i : grid0.Coords) (a1 : Memref sig .tc .vmem S1x16x128 .i32) (h1 : a1.IsWhole)
  (a2 : Memref sig .tc .vmem S1x16x128 .i32) (h2 : a2.IsWhole) (a3 : Memref sig .tc .vmem S1x16x128 .i32) (h3 : a3.IsWhole)
  (a4 : Memref sig .tc .vmem S512x256 .bf16) (h4 : a4.IsWhole) (a5 : Memref sig .tc .vmem S1x1 .f32) (h5 : a5.IsWhole)
  (a6 : Memref sig .tc .vmem S1x1 .f32) (h6 : a6.IsWhole)
  (x0 x1 x2 : Vec Ideal S1x16x128 .i32) (x3 : Vec Ideal S512x256 .bf16)

/-- FIRST POINT, the scratch: the zero block stored, read back, and the tile sum added to it. -/
theorem sout_A (hc : cond0_0 i) :
    sout0_A_0 (F := Ideal) c i a1 h1 a2 h2 a3 h3 a4 h4 a5 h5 a6 h6 hc x0 x1 x2 x3 = k0_pay1 (tileOf i x0 x1 x2 x3) (k0_pay2 (F := Ideal)) := by
  unfold sout0_A_0
  rw [View.read_writes_eq_canon _ _ _ (scover0_A_0 c i a1 h1 a2 h2 a3 h3 a4 h4 a5 h5 a6 h6 hc x0 x1 x2 x3)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread, h4.read_unread,
    View.ld_unit_zero (S := S1x16x128) hz3, View.ld_unit_zero (S := S512x256) hz2]
  rfl

/-- FIRST POINT, the output's buffer: a copy of what the scratch then holds. -/
theorem out_A (hc : cond0_0 i) :
    out0_A_4 (F := Ideal) c i a1 h1 a2 h2 a3 h3 a4 h4 a5 h5 a6 h6 hc x0 x1 x2 x3 = k0_pay1 (tileOf i x0 x1 x2 x3) (k0_pay2 (F := Ideal)) := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero (S := S1x1) hz2, readCov_cons_whole (S := S1x1) _ hz2, View.readCov_unit_zero (S := S1x1) _ hz2]
  simp only [View.readAt_eq_ld, h1.read_unread, h2.read_unread, h3.read_unread, h4.read_unread,
    View.ld_unit_zero (S := S1x16x128) hz3, View.ld_unit_zero (S := S512x256) hz2]
  rfl

/-- A LATER POINT, the scratch: what the point before left, plus the tile sum. -/
theorem sout_B (hc : ¬cond0_0 i) (xs : Vec Ideal S1x1 .f32) :
    sout0_B_0 (F := Ideal) c i a1 h1 a2 h2 a3 h3 a4 h4 a5 h5 a6 h6 hc x0 x1 x2 x3 xs = k0_pay1 (tileOf i x0 x1 x2 x3) xs := by
  unfold sout0_B_0
  rw [View.read_writes_eq_canon _ _ _ (scover0_B_0 c i a1 h1 a2 h2 a3 h3 a4 h4 a5 h5 a6 h6 hc x0 x1 x2 x3 xs)]
  unfold kernelRun0_B
  dsimp only
  sl_unfold_words
  rw [View.canon_unit_zero (S := S1x1) hz2]
  simp only [View.readAt_eq_ld, h1.read_unread, h2.read_unread, h3.read_unread, h4.read_unread, h6.read_unread,
    View.ld_unit_zero (S := S1x16x128) hz3, View.ld_unit_zero (S := S512x256) hz2, View.ld_unit_zero (S := S1x1) hz2]
  rfl

/-- A LATER POINT, the output's buffer: a copy of what the scratch then holds. -/
theorem out_B (hc : ¬cond0_0 i) (xs : Vec Ideal S1x1 .f32) :
    out0_B_4 (F := Ideal) c i a1 h1 a2 h2 a3 h3 a4 h4 a5 h5 a6 h6 hc x0 x1 x2 x3 xs = k0_pay1 (tileOf i x0 x1 x2 x3) xs := by
  unfold out0_B_4
  rw [View.read_writes_eq_canon _ _ _ (cover0_B_4 c i a1 h1 a2 h2 a3 h3 a4 h4 a5 h5 a6 h6 hc x0 x1 x2 x3 xs)]
  unfold kernelRun0_B
  dsimp only
  sl_unfold_words
  rw [View.canon_unit_zero (S := S1x1) hz2, View.readCov_unit_zero (S := S1x1) _ hz2]
  simp only [View.readAt_eq_ld, h1.read_unread, h2.read_unread, h3.read_unread, h4.read_unread, h6.read_unread,
    View.ld_unit_zero (S := S1x16x128) hz3, View.ld_unit_zero (S := S512x256) hz2, View.ld_unit_zero (S := S1x1) hz2]
  rfl

end pieces

/-! ## The running sum, point by point -/

section run

variable (m : (ℓ : Loc nD τ sig) → Buf (Elt Ideal) ℓ) (ρ : Dev nD → PrngReg)

open Cert.Triplet.Blocks Cert.Triplet.Tile

/-- The 111-point grid has one axis: a point's coordinate is its number. -/
theorem coord_eq : ∀ t : Fin cfg0.N, ((grid0.coords t) 0).val = t.val :=
  (by decide +kernel : ∀ t : Fin grid0.N, ((grid0.coords t) 0).val = t.val)

/-- The tile sum of point t, from the windows' blocks there. -/
abbrev tileAt (c : Dev nD) (t : Fin cfg0.N) : FVec Ideal S1x1 .f32 :=
  tileOf (grid0.coords t) (ablk m c t) (pblk m c t) (nblk m c t) (tblk m c t)

/-- What the scratch and the output's buffer hold after point n: the zero block plus tile 0's sum, then plus each further tile's. -/
def chain (c : Dev nD) : (n : ℕ) → n < cfg0.N → Vec Ideal S1x1 .f32
  | 0, h => k0_pay1 (tileAt m c ⟨0, h⟩) (k0_pay2 (F := Ideal))
  | n + 1, h => k0_pay1 (tileAt m c ⟨n + 1, h⟩) (chain c n (Nat.lt_of_succ_lt h))

/-- The generated contents after point n — the output's buffer and the carried scratch — are both that running value:
    by induction on the point. -/
theorem outsAt_eq (c : Dev nD) : ∀ (n : ℕ) (h : n < cfg0.N), outsAt0 m c n h = (chain m c n h, chain m c n h)
  | 0, h => by
    rw [outsAt0_A m c ⟨0, h⟩ rfl, out_A, sout_A]
    rfl
  | n + 1, h => by
    have hN : cfg0.N = 111 := N_0
    have hB : ¬(⟨n + 1, h⟩ : Fin cfg0.N).val % 111 = 0 := by dsimp only; omega
    rw [outsAt0_B m c ⟨n + 1, h⟩ hB, out_B, sout_B]
    show (k0_pay1 _ (outsAt0 m c n _).2, k0_pay1 _ (outsAt0 m c n _).2) = _
    rw [outsAt_eq c n]
    rfl

end run

/-! ## The running value is the spec's running sum -/

section value

variable (m : (ℓ : Loc nD τ sig) → Buf (Elt Ideal) ℓ) (ρ : Dev nD → PrngReg)

open Cert.Triplet.Blocks Cert.Triplet.Tile

/-- The zero block the first point stores. -/
theorem pay2_eq : k0_pay2 (F := Ideal) = fun _ => Ideal.ofBits .f32 0x00000000#32 := by
  unfold k0_pay2
  dsimp only
  rw [shapeCast_self]
  rfl

/-- The accumulation step: the previous contents plus the tile sum. -/
theorem pay1_eq (v85 : FVec Ideal S1x1 .f32) (v86 : Vec Ideal S1x1 .f32) : k0_pay1 v85 v86 = fun j => v86 j + v85 j := by
  unfold k0_pay1
  dsimp only
  rw [shapeCast_self]
  rfl

/-- Point t's tile sum is the spec's tile sum of tile t: the windows' blocks are slabs of the padded index vectors and the
    table, and the padded words all name rows. -/
theorem tileAt_eq (h2 : ∀ c : Dev nD, InRange (m ((c : Thread nD τ).loc main_arg2)))
    (h3 : ∀ c : Dev nD, InRange (m ((c : Thread nD τ).loc main_arg3)))
    (h4 : ∀ c : Dev nD, InRange (m ((c : Thread nD τ).loc main_arg4))) (c : Dev nD) (t : Fin cfg0.N) :
    tileAt m c t = fun _ => tileSum (m ((c : Thread nD τ).loc main_arg0)) (m ((c : Thread nD τ).loc main_arg2))
      (m ((c : Thread nD τ).loc main_arg3)) (m ((c : Thread nD τ).loc main_arg4)) t.val := by
  have hN : cfg0.N = 111 := N_0
  have ht : t.val < 111 := lt_of_lt_of_eq t.isLt hN
  show k0_pay9 (BitVec.ofNat 32 ((grid0.coords t) 0).val) (k0_pay4 (tblk m c t) (ablk m c t)) (k0_pay5 (tblk m c t) (pblk m c t))
    (k0_pay6 (tblk m c t) (nblk m c t)) (k0_pay7 (tblk m c t) (ablk m c t) (pblk m c t)) (k0_pay8 (tblk m c t) (ablk m c t)) = _
  rw [coord_eq t]
  refine (tile_value ⟨t.val, ht⟩ (tblk m c t) (ablk m c t) (pblk m c t) (nblk m c t)
    (fun r => by rw [ablk_apply]; exact padIdx_lt _ (h2 c) _) (fun r => by rw [pblk_apply]; exact padIdx_lt _ (h3 c) _)
    (fun r => by rw [nblk_apply]; exact padIdx_lt _ (h4 c) _)).trans ?_
  funext _
  refine Finset.sum_congr rfl fun r _ => ?_
  rw [ablk_apply, pblk_apply, nblk_apply, tblk_eq]
  rfl

/-- So after point n the scratch and the output's buffer hold the spec's running sum after tile n. -/
theorem chain_eq (h2 : ∀ c : Dev nD, InRange (m ((c : Thread nD τ).loc main_arg2)))
    (h3 : ∀ c : Dev nD, InRange (m ((c : Thread nD τ).loc main_arg3)))
    (h4 : ∀ c : Dev nD, InRange (m ((c : Thread nD τ).loc main_arg4))) (c : Dev nD) : ∀ (n : ℕ) (h : n < cfg0.N),
    chain m c n h = fun _ => accum (m ((c : Thread nD τ).loc main_arg0)) (m ((c : Thread nD τ).loc main_arg2))
      (m ((c : Thread nD τ).loc main_arg3)) (m ((c : Thread nD τ).loc main_arg4)) n
  | 0, h => by
    show k0_pay1 (tileAt m c ⟨0, h⟩) (k0_pay2 (F := Ideal)) = _
    rw [pay1_eq, pay2_eq, tileAt_eq m h2 h3 h4 c]
    rfl
  | n + 1, h => by
    show k0_pay1 (tileAt m c ⟨n + 1, h⟩) (chain m c n _) = _
    rw [pay1_eq, chain_eq h2 h3 h4 c n, tileAt_eq m h2 h3 h4 c]
    rfl

end value

/-! ## The result array and the host's last operations -/

section final

variable (m : (ℓ : Loc nD τ sig) → Buf (Elt Ideal) ℓ) (ρ : Dev nD → PrngReg)

theorem hlast : (110 : ℕ) < cfg0.N := by rw [show cfg0.N = 111 from N_0]; decide

/-- The contents of the [1, 1] result array: the running value after the last point. -/
abbrev result (c : Dev nD) : Buf (Elt Ideal) ((c : Thread nD τ).loc main_v7) := chain m c 110 hlast

/-- The one write-back, after the last point, writes it: block (0, 0) of the [1, 1] array through zero offsets is the array. -/
theorem flushed_eq (c : Dev nD) (t : Fin cfg0.N) (hf : (cfg0.win 4).flush t = true) :
    (dats m 0 c).flushed 4 t = ((cfg0.win 4).blk t).view.read (Elt Ideal) (result m c) := by
  have hN : cfg0.N = 111 := N_0
  have h110 : t.val = 110 := by have := (flush0_4 t).mp hf; have := t.isLt; omega
  obtain rfl : t = ⟨110, hlast⟩ := Fin.ext h110
  show (cfg0.win 4).cut (grid0.coords ⟨110, hlast⟩) ((dats m 0 c).after 4 ⟨110, hlast⟩) = _
  rw [after0_4, outsAt_eq]
  have hz' : (fun a => win0_4.index ⟨110, hlast⟩ a * main_v7.ty.shape.size a) = fun _ => 0 :=
    funext fun a => by fin_cases a <;> decide +kernel
  exact (Memref.read_access_unit_zero (Elt Ideal) main_v7 hz' (fun a => by rw [congrFun hz' a]; simp) (result m c)).symm

/-- So the result array ends at the running value after the last point: that point's block covers it. -/
theorem final_o (c : Dev nD) : (dats m 0 c).arrAt 4 cfg0.N = result m c :=
  (dats m 0 c).arrAt_eq_of_cover 4 (result m c) (flushed_eq m c) fun i =>
    ⟨⟨110, hlast⟩, (flush0_4 ⟨110, hlast⟩).mpr rfl, by
      show i ∈ ((View.whole main_v7).slice (win0_4.rect ⟨110, hlast⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index ⟨110, hlast⟩ 0 * win0_4.size 0 ≤ (i 0 : Nat) ∧ (i 0 : Nat) < win0_4.index ⟨110, hlast⟩ 0 * win0_4.size 0 + win0_4.xsize (grid0.coords ⟨110, hlast⟩) 0
        rw [show win0_4.index ⟨110, hlast⟩ 0 * win0_4.size 0 = 0 from by decide +kernel, show win0_4.xsize (grid0.coords ⟨110, hlast⟩) 0 = 1 from by decide +kernel]; omega
      | ⟨1, _⟩ =>
        show win0_4.index ⟨110, hlast⟩ 1 * win0_4.size 1 ≤ (i 1 : Nat) ∧ (i 1 : Nat) < win0_4.index ⟨110, hlast⟩ 1 * win0_4.size 1 + win0_4.xsize (grid0.coords ⟨110, hlast⟩) 1
        rw [show win0_4.index ⟨110, hlast⟩ 1 * win0_4.size 1 = 0 from by decide +kernel, show win0_4.xsize (grid0.coords ⟨110, hlast⟩) 1 = 1 from by decide +kernel]; omega⟩

/-- What the host's last operations leave in the scalar result: the [1, 1] array read as a scalar, divided by the count. -/
theorem tail_eq (h2 : ∀ c : Dev nD, InRange (m ((c : Thread nD τ).loc main_arg2)))
    (h3 : ∀ c : Dev nD, InRange (m ((c : Thread nD τ).loc main_arg3)))
    (h4 : ∀ c : Dev nD, InRange (m ((c : Thread nD τ).loc main_arg4))) (c : Dev nD) :
    Pipeline.afterTail₀ cfgs (dats m) 0 (V0 m) [hostOps1] c main_v9
      = fun _ => loss (m ((c.tc : Thread nD τ).loc main_arg0)) (m ((c.tc : Thread nD τ).loc main_arg2))
          (m ((c.tc : Thread nD τ).loc main_arg3)) (m ((c.tc : Thread nD τ).loc main_arg4)) := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.devRef .tc main_v7)
      = fun _ => accum (m ((c.tc : Thread nD τ).loc main_arg0)) (m ((c.tc : Thread nD τ).loc main_arg2))
          (m ((c.tc : Thread nD τ).loc main_arg3)) (m ((c.tc : Thread nD τ).loc main_arg4)) 110 :=
    ((Pipeline.withArrays_arr spec0 launch0.win.arr_inj c _ _ 4).trans (final_o m c)).trans (chain_eq m h2 h3 h4 c 110 hlast)
  rw [e]
  funext x
  unfold loss
  rw [← accum_last]
  rfl

/-- Every weakly fair execution of the idealized kernel's @main ends with its result at the loss of the argument arrays,
    the arguments unchanged, when the three index vectors' words all name rows of the table. -/
theorem run (h2 : ∀ c : Dev nD, InRange (m ((c : Thread nD τ).loc main_arg2)))
    (h3 : ∀ c : Dev nD, InRange (m ((c : Thread nD τ).loc main_arg3)))
    (h4 : ∀ c : Dev nD, InRange (m ((c : Thread nD τ).loc main_arg4))) :
    θ_run defs (onTc (τ := τ) (main (F := Ideal))) ⟨m, fun _ => 0, ρ⟩ fun r => ∀ c : Dev nD,
      r.2.mem ((c.tc : Thread nD τ).loc main_v9)
        = (fun _ => loss (m ((c.tc : Thread nD τ).loc main_arg0)) (m ((c.tc : Thread nD τ).loc main_arg2))
            (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v9 (Pipeline.mem_restRefs_of main_v9 (by decide) (by decide))).trans (tail_eq m h2 h3 h4 c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end final

end Cert.Triplet.Run

end
-- ==== Proof.lean ====
/-
  The batch-wise triplet loss with the cosine distance: a Pallas kernel that gathers the anchor, positive and negative rows
  of each mined triplet by a one-hot product against the table held in fast memory, 2048 triplets to a grid point, and
  accumulates the hinges into one scalar across the grid, against jnp's gather-then-reduce reference.

  The two agree on the extended reals where every index word names a row of the 512-row table (0 ≤ w < 512): there a one-hot
  row of the kernel has its single 1 at the word's own number, so the product selects the table's row, and the reference's
  wrap-around and clamp of a position leave the word alone, so its gather reads the same row. Outside that range the reference
  reads a wrapped or clamped row while the kernel's one-hot row is all zeros, hence the added precondition. Given equal rows,
  both programs apply the same operations to them, literal for literal; the kernel's padding positions enter its sum multiplied
  by 0, and its 111 tile sums added from zero are the sum over the triplets in another grouping, which the extended reals'
  addition does not see. Both divide that sum by the same float.

  frame_Kernel, frame_KernelIdeal: the generated frames. frame_ReferenceIdeal: the generated run with its result dropped.
  preserves: the idealization rewrote nothing. algebraic: the kernel's run read as the loss (KernelRun), the reference's last
  stage read as the loss (RefValue), the index ranges from the precondition (PreDecode).
-/
import proofs.«406273_j13786845020971_2_alg».proof.Defs
import proofs.«406273_j13786845020971_2_alg».proof.Proof.Gen.Kernel
import proofs.«406273_j13786845020971_2_alg».proof.Proof.Gen.Kernel.Skeleton
import proofs.«406273_j13786845020971_2_alg».proof.Proof.Gen.Kernel.Launch
import proofs.«406273_j13786845020971_2_alg».proof.Proof.Gen.Kernel.Points
import proofs.«406273_j13786845020971_2_alg».proof.Proof.Gen.Kernel.Frame
import proofs.«406273_j13786845020971_2_alg».proof.Proof.Gen.KernelIdeal
import proofs.«406273_j13786845020971_2_alg».proof.Proof.Gen.KernelIdeal.Skeleton
import proofs.«406273_j13786845020971_2_alg».proof.Proof.Gen.KernelIdeal.Launch
import proofs.«406273_j13786845020971_2_alg».proof.Proof.Gen.KernelIdeal.Points
import proofs.«406273_j13786845020971_2_alg».proof.Proof.Gen.KernelIdeal.Frame
import proofs.«406273_j13786845020971_2_alg».proof.Proof.Gen.ReferenceIdeal
import proofs.«406273_j13786845020971_2_alg».proof.Proof.Gen.ReferenceIdeal.Run
import proofs.«406273_j13786845020971_2_alg».proof.Proof.Gen.ReferenceIdeal.Read
import proofs.«406273_j13786845020971_2_alg».proof.Proof.Gen.Pre_finite_inputs
import proofs.«406273_j13786845020971_2_alg».proof.Proof.PreDecode
import proofs.«406273_j13786845020971_2_alg».proof.Proof.RefValue
import proofs.«406273_j13786845020971_2_alg».proof.Proof.KernelRun
import Idealize.ShloMosaic.Adequacy
import Idealize.ShloMosaic.Init

noncomputable section

namespace Cert.Proof

open Idealize.ShloMosaic Idealize.SL.Sem Cert.Triplet

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the loss of the argument arrays, which agree. -/
theorem algebraic : Cert.algebraic_KernelIdeal_ReferenceIdeal := by
  intro m ρ m' ρ' hpre hagree
  have hr := fun c => Cert.Triplet.Pre.inRange_of_pre _ _ _ _ _ (hpre c)
  refine ⟨_, Cert.Triplet.Run.run m ρ (fun c => (hr c).1) (fun c => (hr c).2.1) (fun c => (hr c).2.2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, (hagree c).1, (hagree c).2.2.1, (hagree c).2.2.2.1, (hagree c).2.2.2.2]
  exact Cert.Triplet.Ref.ref_value _ _ _ _ (hr c).1 (hr c).2.1 (hr c).2.2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
